-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S640000 : Shape := ⟨1, ![640000]⟩
abbrev S128x128 : Shape := ⟨2, ![128, 128]⟩
abbrev S128 : Shape := ⟨1, ![128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S640000 : S_.BroadcastsInDim S640000 (![] : Fin 0 → Fin S640000.rank)
  reducesTo_S640000_S_d0 : S640000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg1 : IVec S640000 32) (main_arg2 : IVec S640000 32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_c_6 : IVec S_ 32 := constantI S_ 32 0#32
  let main_v19 : IVec S640000 32 := broadcastInDim S640000 ![] bcast_S_S640000 main_c_6
  let main_v20 : IVec S640000 1 := cmpi .sge main_arg1 main_v19
  let main_c_7 : IVec S_ 1 := constantI S_ 1 1#1
  let main_v21 : IVec S_ 1 := (fun x v => Host.reduce IntOp.andi x v reducesTo_S640000_S_d0 h_S_) main_v20 main_c_7
  let main_v22 : IVec S_ 1 := andi main_v18 main_v21
  let main_c_8 : IVec S_ 32 := constantI S_ 32 10000#32
  let main_v23 : IVec S640000 32 := broadcastInDim S640000 ![] bcast_S_S640000 main_c_8
  let main_v24 : IVec S640000 1 := cmpi .slt main_arg1 main_v23
  let main_c_9 : IVec S_ 1 := constantI S_ 1 1#1
  let main_v25 : IVec S_ 1 := (fun x v => Host.reduce IntOp.andi x v reducesTo_S640000_S_d0 h_S_) main_v24 main_c_9
  let main_v26 : IVec S_ 1 := andi main_v22 main_v25
  let main_c_10 : IVec S_ 32 := constantI S_ 32 0#32
  let main_v27 : IVec S640000 32 := broadcastInDim S640000 ![] bcast_S_S640000 main_c_10
  let main_v28 : IVec S640000 1 := cmpi .sge main_arg2 main_v27
  let main_c_11 : IVec S_ 1 := constantI S_ 1 1#1
  let main_v29 : IVec S_ 1 := (fun x v => Host.reduce IntOp.andi x v reducesTo_S640000_S_d0 h_S_) main_v28 main_c_11
  let main_v30 : IVec S_ 1 := andi main_v26 main_v29
  main_v30

def fn {F : FTy → Type} [FloatOps F] (main_arg0 : FVec F S10000x128 .f32) (main_arg1 : IVec S640000 32) (main_arg2 : IVec S640000 32) (main_arg3 : FVec F S640000 .f32) (main_arg4 : FVec F S128x128 .f32) (main_arg5 : FVec F S128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S640000 .f32 := Host.absf main_arg3
  let main_cst_0 : FVec F S_ .f32 := constant S_ .f32 0x7F800000#32
  let main_v5 : FVec F S640000 .f32 := broadcastInDim S640000 ![] bcast_S_S640000 main_cst_0
  let main_v6 : IVec S640000 1 := cmpf .olt main_v4 main_v5
  let main_c_1 : IVec S_ 1 := constantI S_ 1 1#1
  let main_v7 : IVec S_ 1 := (fun x v => Host.reduce IntOp.andi x v reducesTo_S640000_S_d0 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg1 main_arg2 main_v13 main_v16
-- ==== Kernel.lean ====
abbrev S10000x128 : Shape := ⟨2, ![10000, 128]⟩
abbrev S640000 : Shape := ⟨1, ![640000]⟩
abbrev S128x128 : Shape := ⟨2, ![128, 128]⟩
abbrev S128 : Shape := ⟨1, ![128]⟩
abbrev S_ : Shape := ⟨0, ![]⟩
abbrev S10240x10240 : Shape := ⟨2, ![10240, 10240]⟩
abbrev S640000x1 : Shape := ⟨2, ![640000, 1]⟩
abbrev S640000x2 : Shape := ⟨2, ![640000, 2]⟩
abbrev S10240x128 : Shape := ⟨2, ![10240, 128]⟩
abbrev S1x128 : Shape := ⟨2, ![1, 128]⟩
abbrev S1280x1280 : Shape := ⟨2, ![1280, 1280]⟩
abbrev S1280x128 : Shape := ⟨2, ![1280, 128]⟩

abbrev nBuf : Space → Nat
  | .hbm => 35
  | .vmem => 8
  | .smem => 0
  | _ => 0

abbrev bufTy : (tb : Table) → Fin (tcTables nBuf tb) → BufTy
  | .hbm, ⟨0, _⟩ => ⟨S10000x128, .f32⟩
  | .hbm, ⟨1, _⟩ => ⟨S640000, .i32⟩
  | .hbm, ⟨2, _⟩ => ⟨S640000, .i32⟩
  | .hbm, ⟨3, _⟩ => ⟨S640000, .f32⟩
  | .hbm, ⟨4, _⟩ => ⟨S128x128, .f32⟩
  | .hbm, ⟨5, _⟩ => ⟨S128, .f32⟩
  | .hbm, ⟨6, _⟩ => ⟨S_, .f32⟩
  | .hbm, ⟨7, _⟩ => ⟨S10240x10240, .f32⟩
  | .hbm, ⟨8, _⟩ => ⟨S_, .i32⟩
  | .hbm, ⟨9, _⟩ => ⟨S640000, .i32⟩
  | .hbm, ⟨10, _⟩ => ⟨S640000, .i1⟩
  | .hbm, ⟨11, _⟩ => ⟨S_, .i32⟩
  | .hbm, ⟨12, _⟩ => ⟨S640000, .i32⟩
  | .hbm, ⟨13, _⟩ => ⟨S640000, .i32⟩
  | .hbm, ⟨14, _⟩ => ⟨S640000, .i32⟩
  | .hbm, ⟨15, _⟩ => ⟨S_, .i32⟩
  | .hbm, ⟨16, _⟩ => ⟨S640000, .i32⟩
  | .hbm, ⟨17, _⟩ => ⟨S640000, .i1⟩
  | .hbm, ⟨18, _⟩ => ⟨S_, .i32⟩
  | .hbm, ⟨19, _⟩ => ⟨S640000, .i32⟩
  | .hbm, ⟨20, _⟩ => ⟨S640000, .i32⟩
  | .hbm, ⟨21, _⟩ => ⟨S640000, .i32⟩
  | .hbm, ⟨22, _⟩ => ⟨S640000x1, .i32⟩
  | .hbm, ⟨23, _⟩ => ⟨S640000x1, .i32⟩
  | .hbm, ⟨24, _⟩ => ⟨S640000x2, .i32⟩
  | .hbm, ⟨25, _⟩ => ⟨S10240x10240, .f32⟩
  | .hbm, ⟨26, _⟩ => ⟨S10240x10240, .bf16⟩
  | .hbm, ⟨27, _⟩ => ⟨S_, .i32⟩
  | .hbm, ⟨28, _⟩ => ⟨S_, .f32⟩
  | .hbm, ⟨29, _⟩ => ⟨S10240x128, .f32⟩
  | .hbm, ⟨30, _⟩ => ⟨S10240x128, .bf16⟩
  | .hbm, ⟨31, _⟩ => ⟨S128x128, .f32⟩
  | .hbm, ⟨32, _⟩ => ⟨S1x128, .f32⟩
  | .hbm, ⟨33, _⟩ => ⟨S10240x128, .f32⟩
  | .hbm, ⟨34, _⟩ => ⟨S10000x128, .f32⟩
  | .local _ .vmem, ⟨0, _⟩ => ⟨S1280x1280, .bf16⟩
  | .local _ .vmem, ⟨1, _⟩ => ⟨S1280x1280, .bf16⟩
  | .local _ .vmem, ⟨2, _⟩ => ⟨S10240x128, .bf16⟩
  | .local _ .vmem, ⟨3, _⟩ => ⟨S128x128, .f32⟩
  | .local _ .vmem, ⟨4, _⟩ => ⟨S1x128, .f32⟩
  | .local _ .vmem, ⟨5, _⟩ => ⟨S1280x128, .f32⟩
  | .local _ .vmem, ⟨6, _⟩ => ⟨S1280x128, .f32⟩
  | .local _ .vmem, ⟨7, _⟩ => ⟨S1280x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_c_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_c_1 : Ref sig .tc := ⟨.hbm, 15, rfl⟩
abbrev main_v6 : Ref sig .tc := ⟨.hbm, 16, rfl⟩
abbrev main_v7 : Ref sig .tc := ⟨.hbm, 17, rfl⟩
abbrev main_c_2 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_c_3 : Ref sig .tc := ⟨.hbm, 27, rfl⟩
abbrev main_call0_v0 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨2, ![8, 8], ![false, false]⟩

def k0_mult1 (i : grid0.Coords) : BitVec 32 :=
  let arg1 : BitVec 32 := BitVec.ofNat 32 (i 1).val
  let c1280_i32 : BitVec 32 := 1280#32
  let v5 : BitVec 32 := Scalar.muli arg1 c1280_i32
  v5
def k0_off1 (i : grid0.Coords) : Fin 2 → Nat :=
  let arg1 : BitVec 32 := BitVec.ofNat 32 (i 1).val
  let c1280_i32 : BitVec 32 := 1280#32
  let v5 : BitVec 32 := Scalar.muli arg1 c1280_i32
  let v6 : BitVec 32 := v5
  let v7 : Index := Scalar.indexCast v6
  let c0_2 : Index := 0#32
  ![v7.toNat, 0]
def k0_cond2 (i : grid0.Coords) : BitVec 1 :=
  let arg1 : BitVec 32 := BitVec.ofNat 32 (i 1).val
  let c7_i32 : BitVec 32 := 7#32
  let v16 : BitVec 1 := Scalar.cmpi .eq arg1 c7_i32
  let v17 : BitVec 32 := Scalar.extui v16
  let c0_i32_7 : BitVec 32 := 0#32
  let v18 : BitVec 1 := Scalar.cmpi .ne v17 c0_i32_7
  v18

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1280x1280 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S10240x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1280x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  bcast_S_S10240x10240 : S_.BroadcastsInDim S10240x10240 (![] : Fin 0 → Fin S10240x10240.rank)
  bcast_S_S640000 : S_.BroadcastsInDim S640000 (![] : Fin 0 → Fin S640000.rank)
  bcast_S640000_S640000x1_0 : S640000.BroadcastsInDim S640000x1 (![0] : Fin 1 → Fin S640000x1.rank)
  concatenates_S640000x1_S640000x1_S640000x2_d1 : Shape.Concatenates [S640000x1, S640000x1] S640000x2 1
  bitsLt_bf16_f32 : FTy.bits .bf16 < FTy.bits .f32
  pads_S10000x128_S10240x128_02400_000 : S10000x128.Pads (![0, 0] : Fin 2 → Nat) ![240, 0] ![0, 0] S10240x128
  h_S_ : 0 < S_.numel
  transposes_S128x128_S128x128_1_0 : S128x128.Transposes [1, 0] S128x128
  shapeCasts_S128_S1x128 : S128.ShapeCasts S1x128
  inb_S1280x128_S1280x128_0_0 : ∀ a, (![0, 0] : Fin 2 → Nat) a + S1280x128.size a ≤ S1280x128.size a
  h_S1280x128 : 0 < S1280x128.numel
  shapeCasts_S1280x128_S1280x128 : S1280x128.ShapeCasts S1280x128
  inb_S1280x1280_S1280x1280_0_0 : ∀ a, (![0, 0] : Fin 2 → Nat) a + S1280x1280.size a ≤ S1280x1280.size a
  h_S1280x1280 : 0 < S1280x1280.numel
  shapeCasts_S1280x1280_S1280x1280 : S1280x1280.ShapeCasts S1280x1280
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1280x128 : S1x128.Broadcasts S1280x128
  slices_S10240x128_S10000x128_0_0 : S10240x128.Slices ![0, 0] S10000x128
  scatter_S10240x10240_S640000x2_S640000_n_01_01_1_wf : ScatterDims.WF S10240x10240 S640000x2 S640000 [] [0, 1] [0, 1] 1
  dot_S1280x1280_S1280x128_S1280x128_1_0_0_1_n_n_wf : DotDims.WF S1280x1280 S1280x128 S1280x128 [1] [0] [0] [1] [] []
  dot_S1280x128_S128x128_S1280x128_1_0_0_1_n_n_wf : DotDims.WF S1280x128 S128x128 S1280x128 [1] [0] [0] [1] [] []
  hrank0 : 0 < grid0.rank
  k0_mult1_dvd : ∀ i : grid0.Coords, 1280 ∣ (k0_mult1 i).toNat
  k0_off1_inb : ∀ i : grid0.Coords, ∀ a, (k0_off1 i) a + S1280x128.size a ≤ S10240x128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1280x1280.size a ≤ S10240x10240.size a
  hwx0_0 : ∀ i : grid0.Coords, EltTy.bits .bf16 = 32 ∨ (Rect.block (s := S10240x10240) S1280x1280.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10240x128.size a ≤ S10240x128.size a
  hwx0_1 : ∀ i : grid0.Coords, EltTy.bits .bf16 = 32 ∨ (Rect.block (s := S10240x128) S10240x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1280x128.size a ≤ S10240x128.size a
  hwx0_4 : ∀ i : grid0.Coords, EltTy.bits .f32 = 32 ∨ (Rect.block (s := S10240x128) S1280x128.size (cc0_transform_4 i) (hinb0_4 i)).WholeWords (EltTy.packing .f32)

variable [Facts₀]

def scatter_S10240x10240_S640000x2_S640000_n_01_01_1 : ScatterDims S10240x10240 S640000x2 S640000 where
  updateWindowDims := []
  insertedWindowDims := [0, 1]
  scatterDimsToOperandDims := [0, 1]
  indexVectorDim := 1
  wf := scatter_S10240x10240_S640000x2_S640000_n_01_01_1_wf
def dot_S1280x1280_S1280x128_S1280x128_1_0_0_1_n_n : DotDims S1280x1280 S1280x128 S1280x128 where
  lhsContracting := [1]
  rhsContracting := [0]
  lhsNonContracting := [0]
  rhsNonContracting := [1]
  lhsBatch := []
  rhsBatch := []
  wf := dot_S1280x1280_S1280x128_S1280x128_1_0_0_1_n_n_wf
def dot_S1280x128_S128x128_S1280x128_1_0_0_1_n_n : DotDims S1280x128 S128x128 S1280x128 where
  lhsContracting := [1]
  rhsContracting := [0]
  lhsNonContracting := [0]
  rhsNonContracting := [1]
  lhsBatch := []
  rhsBatch := []
  wf := dot_S1280x128_S128x128_S1280x128_1_0_0_1_n_n_wf

abbrev win0_0 : Pipeline.Window sig grid0 :=
  Pipeline.Window.ofSpec (Memref.whole main_v15) S1280x1280.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v17) S10240x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v18) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v19) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v20) S1280x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S10000x128 : Shape := ⟨2, ![10000, 128]⟩
abbrev S640000 : Shape := ⟨1, ![640000]⟩
abbrev S128x128 : Shape := ⟨2, ![128, 128]⟩
abbrev S128 : Shape := ⟨1, ![128]⟩
abbrev S_ : Shape := ⟨0, ![]⟩
abbrev S640000x1 : Shape := ⟨2, ![640000, 1]⟩
abbrev S640000x128 : Shape := ⟨2, ![640000, 128]⟩
abbrev S1x128 : Shape := ⟨2, ![1, 128]⟩

abbrev nBuf : Space → Nat
  | .hbm => 26
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S640000, .i32⟩
  | .hbm, ⟨2, _⟩ => ⟨S640000, .i32⟩
  | .hbm, ⟨3, _⟩ => ⟨S640000, .f32⟩
  | .hbm, ⟨4, _⟩ => ⟨S128x128, .f32⟩
  | .hbm, ⟨5, _⟩ => ⟨S128, .f32⟩
  | .hbm, ⟨6, _⟩ => ⟨S_, .i32⟩
  | .hbm, ⟨7, _⟩ => ⟨S640000, .i32⟩
  | .hbm, ⟨8, _⟩ => ⟨S640000, .i1⟩
  | .hbm, ⟨9, _⟩ => ⟨S_, .i32⟩
  | .hbm, ⟨10, _⟩ => ⟨S640000, .i32⟩
  | .hbm, ⟨11, _⟩ => ⟨S640000, .i32⟩
  | .hbm, ⟨12, _⟩ => ⟨S640000, .i32⟩
  | .hbm, ⟨13, _⟩ => ⟨S640000x1, .i32⟩
  | .hbm, ⟨14, _⟩ => ⟨S640000x128, .f32⟩
  | .hbm, ⟨15, _⟩ => ⟨S640000x1, .f32⟩
  | .hbm, ⟨16, _⟩ => ⟨S640000x128, .f32⟩
  | .hbm, ⟨17, _⟩ => ⟨S640000x128, .f32⟩
  | .hbm, ⟨18, _⟩ => ⟨S_, .f32⟩
  | .hbm, ⟨19, _⟩ => ⟨S10000x128, .f32⟩
  | .hbm, ⟨20, _⟩ => ⟨S640000x1, .i32⟩
  | .hbm, ⟨21, _⟩ => ⟨S10000x128, .f32⟩
  | .hbm, ⟨22, _⟩ => ⟨S10000x128, .f32⟩
  | .hbm, ⟨23, _⟩ => ⟨S1x128, .f32⟩
  | .hbm, ⟨24, _⟩ => ⟨S10000x128, .f32⟩
  | .hbm, ⟨25, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩

abbrev nD : Nat := 1
abbrev τ : Topo := Topo.v7x

variable {F : FTy → Type} [FloatOps F]

class Facts₀ : Prop where
  bcast_S_S640000 : S_.BroadcastsInDim S640000 (![] : Fin 0 → Fin S640000.rank)
  bcast_S640000_S640000x1_0 : S640000.BroadcastsInDim S640000x1 (![0] : Fin 1 → Fin S640000x1.rank)
  bcast_S640000x1_S640000x128_0_1 : S640000x1.BroadcastsInDim S640000x128 (![0, 1] : Fin 2 → Fin S640000x128.rank)
  bcast_S_S10000x128 : S_.BroadcastsInDim S10000x128 (![] : Fin 0 → Fin S10000x128.rank)
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  gather_S10000x128_S640000x1_S640000x128_1_0_n_n_0_1_1128_wf : GatherDims.WF S10000x128 S640000x1 S640000x128 [1] [0] [] [0] [] 1 ![1, 128]
  scatter_S10000x128_S640000x1_S640000x128_1_0_0_1_wf : ScatterDims.WF S10000x128 S640000x1 S640000x128 [1] [0] [0] 1
  dot_S10000x128_S128x128_S10000x128_1_1_0_0_n_n_wf : DotDims.WF S10000x128 S128x128 S10000x128 [1] [1] [0] [0] [] []

variable [Facts₀]

def gather_S10000x128_S640000x1_S640000x128_1_0_n_n_0_1_1128 : GatherDims S10000x128 S640000x1 S640000x128 where
  offsetDims := [1]
  collapsedSliceDims := [0]
  operandBatchingDims := []
  startIndicesBatchingDims := []
  startIndexMap := [0]
  indexVectorDim := 1
  sliceSizes := ![1, 128]
  wf := gather_S10000x128_S640000x1_S640000x128_1_0_n_n_0_1_1128_wf
def scatter_S10000x128_S640000x1_S640000x128_1_0_0_1 : ScatterDims S10000x128 S640000x1 S640000x128 where
  updateWindowDims := [1]
  insertedWindowDims := [0]
  scatterDimsToOperandDims := [0]
  indexVectorDim := 1
  wf := scatter_S10000x128_S640000x1_S640000x128_1_0_0_1_wf
def dot_S10000x128_S128x128_S10000x128_1_1_0_0_n_n : DotDims S10000x128 S128x128 S10000x128 where
  lhsContracting := [1]
  rhsContracting := [1]
  lhsNonContracting := [0]
  rhsNonContracting := [0]
  lhsBatch := []
  rhsBatch := []
  wf := dot_S10000x128_S128x128_S10000x128_1_1_0_0_n_n_wf

class Facts : Prop extends Facts₀ where

variable [Facts]
-- ==== Proof.LibMatmulAt.lean ====
/-
  A PLAIN MATRIX PRODUCT READ AT AN INDEX. A tpu.matmul of an M x K block with a K x N matrix into the zero splat,
  at the ideal instance, read at (p, q): the sum over k of l (p, k) * r (k, q).

  The lemma takes the dimension numbers d as given and asks for the four facts that say which operand coordinate an
  output index j and a contraction index k are sent to (left: (j 0, k); right: (k, j 1)) and that the contraction
  shape has one axis of extent K. For a printed record with contracting dims [1] x [0] and no batch axes each is one
  line: the two non-contracting ones by unfolding DotDims.lhsIdx / rhsIdx at the literal axis (dif_neg on the batch
  list, dif_pos on the non-contracting list, both decided), the two contracting ones by
  DotDims.lhsIdx_val_of_single rfl / rhsIdx_val_of_single rfl, the contraction shape's by rfl.
-/
import Idealize.ShloMosaic.PureOps.Ideal.Laws
import Idealize.ShloMosaic.Lib.ValueIdx

noncomputable section

namespace Idealize.ShloMosaic.MatmulAt

open Idealize.ShloMosaic Idealize.ShloMosaic.ValueIdx

/-- A product of an M x K block with a K x N matrix into a zero accumulator, at (p, q): the sum over k of the
    entries' products, given where the dimension numbers send an output index and a contraction index. -/
theorem matmul_at {M K N : Nat} {φ₁ φ₂ : FTy} (d : DotDims ⟨2, ![M, K]⟩ ⟨2, ![K, N]⟩ ⟨2, ![M, N]⟩)
    (hr : d.contr.rank = 1) (hs : d.contr.size ⟨0, by omega⟩ = K)
    (l0 : ∀ (j : (⟨2, ![M, N]⟩ : Shape).Idx) (q : d.contr.Idx), (d.lhsIdx j q 0).val = (j 0).val)
    (l1 : ∀ (j : (⟨2, ![M, N]⟩ : Shape).Idx) (q : d.contr.Idx), (d.lhsIdx j q 1).val = (q ⟨0, by omega⟩).val)
    (r0 : ∀ (j : (⟨2, ![M, N]⟩ : Shape).Idx) (q : d.contr.Idx), (d.rhsIdx j q 0).val = (q ⟨0, by omega⟩).val)
    (r1 : ∀ (j : (⟨2, ![M, N]⟩ : Shape).Idx) (q : d.contr.Idx), (d.rhsIdx j q 1).val = (j 1).val)
    (prec : Option ContractPrecision) (l : FVec Ideal ⟨2, ![M, K]⟩ φ₁) (r : FVec Ideal ⟨2, ![K, N]⟩ φ₂)
    (p : Fin M) (q : Fin N) :
    matmul d prec l r (constant ⟨2, ![M, N]⟩ .f32 0x00000000#32) (ix2 p q) = ∑ k : Fin K, l (ix2 p k) * r (ix2 k q) := by
  simp only [matmul]
  rw [Ideal.matmul_constant_zero_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact l0 _ _
    | ⟨1, _⟩ => exact (l1 _ _).trans hk)
  have er : d.rhsIdx (ix2 p q) ((contrEquiv1 d K hr hs).symm k) = ix2 k q := funext fun a => Fin.ext (by
    match a with
    | ⟨0, _⟩ => exact (r0 _ _).trans hk
    | ⟨1, _⟩ => exact r1 _ _)
  rw [el, er]

end Idealize.ShloMosaic.MatmulAt

end
-- ==== Proof.LibDotAt.lean ====
/-
  A PLAIN DOT PRODUCT ON THE HOST READ AT AN INDEX, and the axis facts of plain dimension numbers.

  For dimension numbers of an M x K by K x N product with no batch axes — contracting [1] x [0], free axes [0] and [1] —
  the operand indices at an output index j and a contraction index k are (j 0, k) on the left and (k, j 1) on the right
  (`plain_l0` … `plain_r1`, each from the lists alone). With them a host dot_general at the ideal instance, read at (p, q),
  is the sum over k of l (p, k) * r (k, q) (`dotGeneral_plain`), and so is a matrix product into the zero splat
  (`matmul_plain`): the two are one function of their operands.
-/
import Idealize.ShloMosaic.PureOps.Ideal.Laws
import Idealize.ShloMosaic.Lib.ValueIdx
import proofs.«418839_j86114094285068_2_alg».proof.Proof.LibMatmulAt

noncomputable section

namespace Idealize.ShloMosaic.DotAt

open Idealize.ShloMosaic Idealize.ShloMosaic.ValueIdx

variable {M K N : Nat} (d : DotDims ⟨2, ![M, K]⟩ ⟨2, ![K, N]⟩ ⟨2, ![M, N]⟩)

private theorem coord_congr (j : (⟨2, ![M, N]⟩ : Shape).Idx) (p q : Nat) (hp : p < 2) (hq : q < 2) (h : p = q) :
    (j ⟨p, hp⟩).val = (j ⟨q, hq⟩).val := by subst h; rfl

/-- The left operand's free axis follows the output's axis 0. -/
theorem plain_l0 (hlb : d.lhsBatch = []) (hln : d.lhsNonContracting = [0])
    (j : (⟨2, ![M, N]⟩ : Shape).Idx) (k : d.contr.Idx) : (d.lhsIdx j k 0).val = (j 0).val := by
  unfold DotDims.lhsIdx
  rw [dif_neg (by rw [hlb]; exact List.not_mem_nil), dif_pos (by rw [hln]; exact List.mem_singleton.mpr rfl)]
  simp only [Fin.val_cast]
  exact coord_congr j _ _ _ _ (by simp [hlb, hln])

/-- The right operand's free axis follows the output's axis 1. -/
theorem plain_r1 (hlb : d.lhsBatch = []) (hrb : d.rhsBatch = []) (hln : d.lhsNonContracting = [0]) (hrn : d.rhsNonContracting = [1])
    (j : (⟨2, ![M, N]⟩ : Shape).Idx) (k : d.contr.Idx) : (d.rhsIdx j k 1).val = (j 1).val := by
  unfold DotDims.rhsIdx
  rw [dif_neg (by rw [hrb]; exact List.not_mem_nil), dif_pos (by rw [hrn]; exact List.mem_singleton.mpr rfl)]
  simp only [Fin.val_cast]
  exact coord_congr j _ _ _ _ (by simp [hlb, hln, hrn])

/-- A host dot_general with plain dimension numbers, at the ideal instance, read at (p, q). -/
theorem dotGeneral_plain {φ₁ φ₂ : FTy} (hr : d.contr.rank = 1) (hs : d.contr.size ⟨0, by omega⟩ = K)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (l : FVec Ideal ⟨2, ![M, K]⟩ φ₁) (r : FVec Ideal ⟨2, ![K, N]⟩ φ₂) (p : Fin M) (q : Fin N) :
    Host.dotGeneral d prec l r (ix2 p q) = ∑ k : Fin K, l (ix2 p k) * r (ix2 k q) := by
  simp only [Host.dotGeneral]
  rw [Ideal.dotGeneral_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact plain_l0 d hlb hln _ _
    | ⟨1, _⟩ => exact (d.lhsIdx_val_of_single hlc _ _).trans hk)
  have er : d.rhsIdx (ix2 p q) ((contrEquiv1 d K hr hs).symm k) = ix2 k q := funext fun a => Fin.ext (by
    match a with
    | ⟨0, _⟩ => exact (d.rhsIdx_val_of_single hrc _ _).trans hk
    | ⟨1, _⟩ => exact plain_r1 d hlb hrb hln hrn _ _)
  rw [el, er]

/-- A matrix product with plain dimension numbers into the zero splat, at the ideal instance, read at (p, q). -/
theorem matmul_plain {φ₁ φ₂ : FTy} (hr : d.contr.rank = 1) (hs : d.contr.size ⟨0, by omega⟩ = K)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (l : FVec Ideal ⟨2, ![M, K]⟩ φ₁) (r : FVec Ideal ⟨2, ![K, N]⟩ φ₂) (p : Fin M) (q : Fin N) :
    matmul d prec l r (constant ⟨2, ![M, N]⟩ .f32 0x00000000#32) (ix2 p q) = ∑ k : Fin K, l (ix2 p k) * r (ix2 k q) :=
  MatmulAt.matmul_at d hr hs (plain_l0 d hlb hln) (fun j q => d.lhsIdx_val_of_single hlc j q)
    (fun j q => d.rhsIdx_val_of_single hrc j q) (plain_r1 d hlb hrb hln hrn) prec l r p q

end Idealize.ShloMosaic.DotAt

end
-- ==== Proof.Spec.lean ====
/-
  Graph convolution, both ways, as plain functions of the six argument arrays over the extended reals.

  The message-passing form: node `n` gathers, over the edges `e` whose destination is `n`, the source row of `x`
  scaled by the edge weight; the result is that aggregate through the linear layer, `agg · Wᵀ + b`.

  The dense form: the edge list is first summed into an adjacency matrix `A` (entry `(n, j)` the total weight of the
  edges from `j` to `n`), the product `A · X` with the zero-padded table `X` is accumulated band by band (eight
  bands of 1280 columns, starting from the zero), and the same linear layer follows.
-/
import Idealize.ShloMosaic.PureOps.Ideal
import Idealize.ShloMosaic.Lib.ValueIdx

noncomputable section

namespace Cert.GraphConv

open Idealize.ShloMosaic Idealize.ShloMosaic.ValueIdx
open scoped BigOperators

/-! ## The message-passing form -/

/-- The row of `x` that edge `e` reads: its source index, as a natural number, clamped into the table. -/
def srcRow (src : IVec ⟨1, ![640000]⟩ 32) (e : Fin 640000) : Fin 10000 :=
  ⟨min (src (ix1 e)).toInt.toNat 9999, by omega⟩

/-- Node `n`'s aggregate in feature `d`: over the edges into `n`, the source row's entry times the edge weight. -/
def agg (x : FVec Ideal ⟨2, ![10000, 128]⟩ .f32) (src dst : IVec ⟨1, ![640000]⟩ 32)
    (adj : FVec Ideal ⟨1, ![640000]⟩ .f32) (n : Fin 10000) (d : Fin 128) : EReal :=
  ∑ e ∈ Finset.univ.filter (fun e : Fin 640000 => (dst (ix1 e)).toInt = (n.val : ℤ)),
    x (ix2 (srcRow src e) d) * adj (ix1 e)

/-- The layer's output at node `n`, output feature `o`: `∑_d agg(n, d) · W(o, d) + b(o)`. -/
def out (x : FVec Ideal ⟨2, ![10000, 128]⟩ .f32) (src dst : IVec ⟨1, ![640000]⟩ 32)
    (adj : FVec Ideal ⟨1, ![640000]⟩ .f32) (W : FVec Ideal ⟨2, ![128, 128]⟩ .f32) (b : FVec Ideal ⟨1, ![128]⟩ .f32)
    (n : Fin 10000) (o : Fin 128) : EReal :=
  (∑ d : Fin 128, agg x src dst adj n d * W (ix2 o d)) + b (ix1 o)

/-! ## The dense form -/

/-- Column `kk` of band `k` (bands of 1280 columns; the band number is read modulo 8). -/
def band (k : ℕ) (kk : Fin 1280) : Fin 10240 :=
  ⟨(k % 8) * 1280 + kk.val, by have := Nat.mod_lt k (show 0 < 8 by decide); omega⟩

/-- Band `k`'s share of `(A · X)(n, d)`. -/
def bandDot (A : FVec Ideal ⟨2, ![10240, 10240]⟩ .bf16) (X : FVec Ideal ⟨2, ![10240, 128]⟩ .bf16)
    (n : Fin 10240) (d : Fin 128) (k : ℕ) : EReal :=
  ∑ kk : Fin 1280, A (ix2 n (band k kk)) * X (ix2 (band k kk) d)

/-- The accumulator after bands `0 … k`: the zero plus band 0, then one band added at a time. -/
def accum (A : FVec Ideal ⟨2, ![10240, 10240]⟩ .bf16) (X : FVec Ideal ⟨2, ![10240, 128]⟩ .bf16)
    (n : Fin 10240) (d : Fin 128) : ℕ → EReal
  | 0 => 0 + bandDot A X n d 0
  | k + 1 => accum A X n d k + bandDot A X n d (k + 1)

/-- The dense form's output at row `n`, feature `o`: the full accumulator through the transposed weights, plus the bias row. -/
def dense (A : FVec Ideal ⟨2, ![10240, 10240]⟩ .bf16) (X : FVec Ideal ⟨2, ![10240, 128]⟩ .bf16)
    (Wt : FVec Ideal ⟨2, ![128, 128]⟩ .f32) (B : FVec Ideal ⟨2, ![1, 128]⟩ .f32) (n : Fin 10240) (o : Fin 128) : EReal :=
  (∑ d : Fin 128, accum A X n d 7 * Wt (ix2 d o)) + B (ix2 (0 : Fin 1) o)

/-- A row of the first 10000 among the padded 10240. -/
def padRow (n : Fin 10000) : Fin 10240 := ⟨n.val, by omega⟩

end Cert.GraphConv

end
-- ==== Proof.KernelBody.lean ====
/-
  What one run of the kernel body leaves, case by case, as values.

  The body keeps a [1280, 128] accumulator in scratch. At the first band of a row block it zeroes the accumulator;
  at every band it adds the product of the [1280, 1280] adjacency block with the matching 1280 rows of the resident
  table; at the last band it sends the accumulator through the transposed weights and adds the bias row. So each
  case leaves in the scratch `acc + Ablk · Xband` (with `acc` the zero block in the first case), and the last case
  leaves in the output block `(acc + Ablk · Xband) · Wt + bias`.
-/
import proofs.«418839_j86114094285068_2_alg».proof.Proof.Gen.KernelIdeal.Frame
import proofs.«418839_j86114094285068_2_alg».proof.Proof.LibDotAt
import proofs.«418839_j86114094285068_2_alg».proof.Proof.Spec
import Idealize.ShloMosaic.Lib.Pipeline.Value
import Idealize.ShloMosaic.Lib.ValueIdx
import Idealize.ShloMosaic.Lib.Tactic

noncomputable section

namespace Cert.KernelIdeal.KBody

open Cert.KernelIdeal Cert.KernelIdeal.Gen Idealize.ShloMosaic Idealize.ShloMosaic.TcCoe Idealize.SL.Sem
open Idealize.ShloMosaic.Tactic Idealize.ShloMosaic.ValueIdx
open scoped BigOperators

variable {F : FTy → Type} [FloatOps F]

theorem hz : (![0, 0] : Fin 2 → Nat) = fun _ => 0 := funext fun a => by fin_cases a <;> rfl

/-- The 1280 rows of the resident table the body loads at a point: those of the point's band. -/
abbrev xband (i : grid0.Coords) (x1 : Vec F S10240x128 .bf16) : Vec F S1280x128 .bf16 :=
  View.ld x1 (Rect.unit (s := S10240x128) (k0_off1 i) S1280x128.size (k0_off1_inb i))

/-- First band: the scratch is zeroed, read back, and the band's product added. -/
theorem sout_A (c : Dev nD) (i : grid0.Coords) (arg2 : Memref sig .tc .vmem S1280x1280 .bf16) (harg2 : arg2.IsWhole) (arg3 : Memref sig .tc .vmem S10240x128 .bf16) (harg3 : arg3.IsWhole) (arg4 : Memref sig .tc .vmem S128x128 .f32) (harg4 : arg4.IsWhole) (arg5 : Memref sig .tc .vmem S1x128 .f32) (harg5 : arg5.IsWhole) (arg6 : Memref sig .tc .vmem S1280x128 .f32) (harg6 : arg6.IsWhole) (arg7 : Memref sig .tc .vmem S1280x128 .f32) (harg7 : arg7.IsWhole) (hc0 : cond0_0 i) (hc1 : ¬cond0_1 i)
    (x0 : Vec F S1280x1280 .bf16) (x1 : Vec F S10240x128 .bf16) (x2 : Vec F S128x128 .f32) (x3 : Vec F S1x128 .f32) :
    sout0_A_0 c i arg2 harg2 arg3 harg3 arg4 harg4 arg5 harg5 arg6 harg6 arg7 harg7 hc0 hc1 x0 x1 x2 x3 = k0_pay2 x0 (xband i x1) (k0_pay1 (F := F)) := by
  unfold sout0_A_0
  rw [View.read_writes_eq_canon _ _ _ (scover0_A_0 c i arg2 harg2 arg3 harg3 arg4 harg4 arg5 harg5 arg6 harg6 arg7 harg7 hc0 hc1 x0 x1 x2 x3)]
  unfold kernelRun0_A
  dsimp only
  sl_unfold_run_names
  rw [View.canon_cons_unit_zero (S := S1280x128) hz, View.readCov_unit_zero (S := S1280x128) _ hz]
  simp only [View.readAt_eq_ld, harg2.read_unread, harg3.read_unread, View.ld_unit_zero (S := S1280x1280) hz]

/-- A middle band: the band's product is added to what the point before left. -/
theorem sout_B (c : Dev nD) (i : grid0.Coords) (arg2 : Memref sig .tc .vmem S1280x1280 .bf16) (harg2 : arg2.IsWhole) (arg3 : Memref sig .tc .vmem S10240x128 .bf16) (harg3 : arg3.IsWhole) (arg4 : Memref sig .tc .vmem S128x128 .f32) (harg4 : arg4.IsWhole) (arg5 : Memref sig .tc .vmem S1x128 .f32) (harg5 : arg5.IsWhole) (arg6 : Memref sig .tc .vmem S1280x128 .f32) (harg6 : arg6.IsWhole) (arg7 : Memref sig .tc .vmem S1280x128 .f32) (harg7 : arg7.IsWhole) (hc0 : ¬cond0_0 i) (hc1 : ¬cond0_1 i)
    (x0 : Vec F S1280x1280 .bf16) (x1 : Vec F S10240x128 .bf16) (x2 : Vec F S128x128 .f32) (x3 : Vec F S1x128 .f32) (xs0 : Vec F S1280x128 .f32) :
    sout0_B_0 c i arg2 harg2 arg3 harg3 arg4 harg4 arg5 harg5 arg6 harg6 arg7 harg7 hc0 hc1 x0 x1 x2 x3 xs0 = k0_pay2 x0 (xband i x1) xs0 := by
  unfold sout0_B_0
  rw [View.read_writes_eq_canon _ _ _ (scover0_B_0 c i arg2 harg2 arg3 harg3 arg4 harg4 arg5 harg5 arg6 harg6 arg7 harg7 hc0 hc1 x0 x1 x2 x3 xs0)]
  unfold kernelRun0_B
  dsimp only
  sl_unfold_run_names
  rw [View.canon_unit_zero hz]
  simp only [View.readAt_eq_ld, harg2.read_unread, harg3.read_unread, harg7.read_unread, View.ld_unit_zero (S := S1280x1280) hz, View.ld_unit_zero (S := S1280x128) hz]

/-- The last band leaves the same in the scratch … -/
theorem sout_C (c : Dev nD) (i : grid0.Coords) (arg2 : Memref sig .tc .vmem S1280x1280 .bf16) (harg2 : arg2.IsWhole) (arg3 : Memref sig .tc .vmem S10240x128 .bf16) (harg3 : arg3.IsWhole) (arg4 : Memref sig .tc .vmem S128x128 .f32) (harg4 : arg4.IsWhole) (arg5 : Memref sig .tc .vmem S1x128 .f32) (harg5 : arg5.IsWhole) (arg6 : Memref sig .tc .vmem S1280x128 .f32) (harg6 : arg6.IsWhole) (arg7 : Memref sig .tc .vmem S1280x128 .f32) (harg7 : arg7.IsWhole) (hc0 : ¬cond0_0 i) (hc1 : cond0_1 i)
    (x0 : Vec F S1280x1280 .bf16) (x1 : Vec F S10240x128 .bf16) (x2 : Vec F S128x128 .f32) (x3 : Vec F S1x128 .f32) (xs0 : Vec F S1280x128 .f32) :
    sout0_C_0 c i arg2 harg2 arg3 harg3 arg4 harg4 arg5 harg5 arg6 harg6 arg7 harg7 hc0 hc1 x0 x1 x2 x3 xs0 = k0_pay2 x0 (xband i x1) xs0 := by
  unfold sout0_C_0
  rw [View.read_writes_eq_canon _ _ _ (scover0_C_0 c i arg2 harg2 arg3 harg3 arg4 harg4 arg5 harg5 arg6 harg6 arg7 harg7 hc0 hc1 x0 x1 x2 x3 xs0)]
  unfold kernelRun0_C
  dsimp only
  sl_unfold_run_names
  rw [View.canon_unit_zero hz]
  simp only [View.readAt_eq_ld, harg2.read_unread, harg3.read_unread, harg7.read_unread, View.ld_unit_zero (S := S1280x1280) hz, View.ld_unit_zero (S := S1280x128) hz]

/-- … and in the output block the finished accumulator through the linear layer. -/
theorem out_C (c : Dev nD) (i : grid0.Coords) (arg2 : Memref sig .tc .vmem S1280x1280 .bf16) (harg2 : arg2.IsWhole) (arg3 : Memref sig .tc .vmem S10240x128 .bf16) (harg3 : arg3.IsWhole) (arg4 : Memref sig .tc .vmem S128x128 .f32) (harg4 : arg4.IsWhole) (arg5 : Memref sig .tc .vmem S1x128 .f32) (harg5 : arg5.IsWhole) (arg6 : Memref sig .tc .vmem S1280x128 .f32) (harg6 : arg6.IsWhole) (arg7 : Memref sig .tc .vmem S1280x128 .f32) (harg7 : arg7.IsWhole) (hc0 : ¬cond0_0 i) (hc1 : cond0_1 i)
    (x0 : Vec F S1280x1280 .bf16) (x1 : Vec F S10240x128 .bf16) (x2 : Vec F S128x128 .f32) (x3 : Vec F S1x128 .f32) (xs0 : Vec F S1280x128 .f32) :
    out0_C_4 c i arg2 harg2 arg3 harg3 arg4 harg4 arg5 harg5 arg6 harg6 arg7 harg7 hc0 hc1 x0 x1 x2 x3 xs0 = k0_pay3 (k0_pay2 x0 (xband i x1) xs0) x2 x3 := by
  unfold out0_C_4
  rw [View.read_writes_eq_canon _ _ _ (cover0_C_4 c i arg2 harg2 arg3 harg3 arg4 harg4 arg5 harg5 arg6 harg6 arg7 harg7 hc0 hc1 x0 x1 x2 x3 xs0)]
  unfold kernelRun0_C
  dsimp only
  sl_unfold_run_names
  rw [View.canon_unit_zero hz, View.readCov_unit_zero (S := S1280x128) _ hz]
  simp only [View.readAt_eq_ld, harg2.read_unread, harg3.read_unread, harg4.read_unread, harg5.read_unread, harg7.read_unread,
    View.ld_unit_zero (S := S1280x1280) hz, View.ld_unit_zero (S := S1280x128) hz, View.ld_unit_zero (S := S128x128) hz,
    View.ld_unit_zero (S := S1x128) hz]

/-! ## The payloads at an index, over the extended reals -/

/-- The band's first row in the table: the point's second coordinate times 1280. -/
theorem k0_off1_eq (i : grid0.Coords) : k0_off1 i = ![(i 1).val * 1280, 0] := by
  have h8 : (i 1).val < 8 := (i 1).isLt
  unfold k0_off1
  dsimp only
  generalize (i 1).val = v at h8
  interval_cases v <;> rfl

/-- The loaded band at `(kk, d)` is the table at the band's row `kk`. -/
theorem xband_apply (i : grid0.Coords) (x1 : FVec Ideal S10240x128 .bf16) (kk : Fin 1280) (d : Fin 128) :
    xband (F := Ideal) i x1 (ix2 kk d) = x1 (ix2 (Cert.GraphConv.band (i 1).val kk) d) := by
  have h8 : (i 1).val < 8 := (i 1).isLt
  show x1 ((Rect.unit (s := S10240x128) (k0_off1 i) S1280x128.size (k0_off1_inb i)).idx (ix2 kk d)) = _
  refine congrArg x1 (funext fun a => Fin.ext ?_)
  match a with
  | ⟨0, _⟩ =>
    show k0_off1 i 0 + 1 * kk.val = ((i 1).val % 8) * 1280 + kk.val
    rw [k0_off1_eq, Nat.mod_eq_of_lt h8]; show (i 1).val * 1280 + 1 * kk.val = _; omega
  | ⟨1, _⟩ =>
    show k0_off1 i 1 + 1 * d.val = d.val
    rw [k0_off1_eq]; show 0 + 1 * d.val = _; omega

/-- The zero block. -/
theorem pay1_apply (j : S1280x128.Idx) : k0_pay1 (F := Ideal) j = 0 := by
  unfold k0_pay1
  rw [shapeCast_self]
  exact Ideal.ofBits_zero_f32

/-- The accumulator's update at `(p, d)`: what was there plus row `p` of the block against column `d` of the band. -/
theorem pay2_apply (a : FVec Ideal S1280x1280 .bf16) (xb : FVec Ideal S1280x128 .bf16) (acc : FVec Ideal S1280x128 .f32)
    (p : Fin 1280) (d : Fin 128) :
    k0_pay2 (F := Ideal) a xb acc (ix2 p d) = acc (ix2 p d) + ∑ kk : Fin 1280, a (ix2 p kk) * xb (ix2 kk d) := by
  unfold k0_pay2
  rw [shapeCast_self, shapeCast_self, shapeCast_self, addf_apply]
  rw [Idealize.ShloMosaic.DotAt.matmul_plain dot_S1280x1280_S1280x128_S1280x128_1_0_0_1_n_n rfl rfl rfl rfl rfl rfl rfl rfl]

/-- The linear layer at `(p, o)`: row `p` of the accumulator against column `o` of the transposed weights, plus the bias. -/
theorem pay3_apply (acc : FVec Ideal S1280x128 .f32) (wt : FVec Ideal S128x128 .f32) (bias : FVec Ideal S1x128 .f32)
    (p : Fin 1280) (o : Fin 128) :
    k0_pay3 (F := Ideal) acc wt bias (ix2 p o) = (∑ d : Fin 128, acc (ix2 p d) * wt (ix2 d o)) + bias (ix2 (0 : Fin 1) o) := by
  unfold k0_pay3
  rw [shapeCast_self, shapeCast_self, addf_apply]
  rw [Idealize.ShloMosaic.DotAt.matmul_plain dot_S1280x128_S128x128_S1280x128_1_0_0_1_n_n rfl rfl rfl rfl rfl rfl rfl rfl]
  rw [broadcastTo_apply bias broadcasts_S1x128_S1280x128 (ix2 p o) (ix2 (0 : Fin 1) o) (fun a => by
    match a with
    | ⟨0, _⟩ => rfl
    | ⟨1, _⟩ => rfl)]
  rfl

end Cert.KernelIdeal.KBody

end
-- ==== Proof.KernelFold.lean ====
/-
  The accumulation over the grid.

  Point `t` of the 8 × 8 grid works on row block `t / 8` and band `t % 8`. The scratch after point `t` holds, at
  `(p, d)`, the accumulator of row `(t / 8) · 1280 + p` after bands `0 … t % 8`: by induction on the point, each
  point adding its band to what the point before left (the first band of a row block starting from the zero).
  At the last band of a row block the output block holds the dense form of that row.
-/
import proofs.«418839_j86114094285068_2_alg».proof.Proof.KernelBody

noncomputable section

namespace Cert.KernelIdeal.KFold

open Cert.KernelIdeal Cert.KernelIdeal.Gen Cert.KernelIdeal.KBody Cert.GraphConv
open Idealize.ShloMosaic Idealize.ShloMosaic.TcCoe Idealize.SL.Sem Idealize.ShloMosaic.ValueIdx
open scoped BigOperators

variable (m : (ℓ : Loc nD τ sig) → Buf (Elt Ideal) ℓ)

/-! The four arrays the region finds and the four blocks a point is handed, each at its literal type. -/
abbrev Aarr (c : Dev nD) : FVec Ideal S10240x10240 .bf16 := V m c main_v15
abbrev Xarr (c : Dev nD) : FVec Ideal S10240x128 .bf16 := V m c main_v17
abbrev Warr (c : Dev nD) : FVec Ideal S128x128 .f32 := V m c main_v18
abbrev Barr (c : Dev nD) : FVec Ideal S1x128 .f32 := V m c main_v19
abbrev ablk (c : Dev nD) (t : Fin cfg0.N) : FVec Ideal S1280x1280 .bf16 := iblk m c 0 t
abbrev xres (c : Dev nD) (t : Fin cfg0.N) : FVec Ideal S10240x128 .bf16 := iblk m c 1 t
abbrev wblk (c : Dev nD) (t : Fin cfg0.N) : FVec Ideal S128x128 .f32 := iblk m c 2 t
abbrev bblk (c : Dev nD) (t : Fin cfg0.N) : FVec Ideal S1x128 .f32 := iblk m c 3 t
/-- The scratch after point `n`. -/
abbrev scr (c : Dev nD) (n : ℕ) (h : n < cfg0.N) : FVec Ideal S1280x128 .f32 := (outsAt0 m c n h).2

/-- The printed index maps over the grid: the adjacency block of point `t` is block `(t / 8, t % 8)`, the three
    resident operands stay at block `(0, 0)`, the output block is `(t / 8, 0)`, and the point's band is `t % 8`. -/
theorem idx_facts : ∀ t : Fin cfg0.N, win0_0.index t (0 : Fin 2) = t.val / 8 ∧ win0_0.index t (1 : Fin 2) = t.val % 8
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val / 8 ∧ win0_4.index t (1 : Fin 2) = 0
    ∧ ((grid0.coords t) 1).val = t.val % 8 :=
  (by decide +kernel : ∀ t : Fin grid0.N, _)

/-- The adjacency block of point `t` at `(p, kk)`: row `p` of row block `t / 8`, column `kk` of band `t % 8`. -/
theorem ablk_apply (c : Dev nD) (t : Fin cfg0.N) (p kk : Fin 1280) :
    ablk m c t (ix2 p kk) = Aarr m c (ix2 (band (t.val / 8) p) (band (t.val % 8) kk)) := by
  obtain ⟨e0, e1, -⟩ := idx_facts t
  have ht : t.val < 64 := lt_of_lt_of_eq t.isLt N_0
  show iblk m c 0 t (ix2 p kk) = _
  unfold iblk
  rw [View.read_apply]
  show V m c main_v15 _ = V m c main_v15 _
  congr 1
  funext a
  apply Fin.ext
  match a with
  | ⟨0, _⟩ => show win0_0.index t (0 : Fin 2) * 1280 + 1 * p.val = ((t.val / 8) % 8) * 1280 + p.val; rw [e0]; omega
  | ⟨1, _⟩ => show win0_0.index t (1 : Fin 2) * 1280 + 1 * kk.val = ((t.val % 8) % 8) * 1280 + kk.val; rw [e1]; omega

/-- The resident table at any point is the whole table. -/
theorem xres_apply (c : Dev nD) (t : Fin cfg0.N) (j : Fin 10240) (d : Fin 128) :
    xres m c t (ix2 j d) = Xarr m c (ix2 j d) := by
  obtain ⟨-, -, e0, e1, -⟩ := idx_facts t
  show iblk m c 1 t (ix2 j d) = _
  unfold iblk
  rw [View.read_apply]
  show V m c main_v17 _ = V m c main_v17 _
  congr 1
  funext a
  apply Fin.ext
  match a with
  | ⟨0, _⟩ => show win0_1.index t (0 : Fin 2) * 10240 + 1 * j.val = j.val; rw [e0]; omega
  | ⟨1, _⟩ => show win0_1.index t (1 : Fin 2) * 128 + 1 * d.val = d.val; rw [e1]; omega

/-- The resident weights at any point are the whole array. -/
theorem wblk_apply (c : Dev nD) (t : Fin cfg0.N) (d o : Fin 128) :
    wblk m c t (ix2 d o) = Warr m c (ix2 d o) := by
  obtain ⟨-, -, -, -, e0, e1, -⟩ := idx_facts t
  show iblk m c 2 t (ix2 d o) = _
  unfold iblk
  rw [View.read_apply]
  show V m c main_v18 _ = V m c main_v18 _
  congr 1
  funext a
  apply Fin.ext
  match a with
  | ⟨0, _⟩ => show win0_2.index t (0 : Fin 2) * 128 + 1 * d.val = d.val; rw [e0]; omega
  | ⟨1, _⟩ => show win0_2.index t (1 : Fin 2) * 128 + 1 * o.val = o.val; rw [e1]; omega

/-- The resident bias row at any point is the whole row. -/
theorem bblk_apply (c : Dev nD) (t : Fin cfg0.N) (o : Fin 128) :
    bblk m c t (ix2 (0 : Fin 1) o) = Barr m c (ix2 (0 : Fin 1) o) := by
  obtain ⟨-, -, -, -, -, -, e0, e1, -⟩ := idx_facts t
  show iblk m c 3 t (ix2 (0 : Fin 1) o) = _
  unfold iblk
  rw [View.read_apply]
  show V m c main_v19 _ = V m c main_v19 _
  congr 1
  funext a
  apply Fin.ext
  match a with
  | ⟨0, _⟩ => show win0_3.index t (0 : Fin 2) * 1 + 1 * 0 = 0; rw [e0]
  | ⟨1, _⟩ => show win0_3.index t (1 : Fin 2) * 128 + 1 * o.val = o.val; rw [e1]; omega

/-- Point `t`'s product of its adjacency block with its band of the table, at `(p, d)`, is band `t % 8`'s share of
    `(A · X)` at row `(t / 8) · 1280 + p`. -/
theorem band_sum (c : Dev nD) (t : Fin cfg0.N) (p : Fin 1280) (d : Fin 128) :
    (∑ kk : Fin 1280, ablk m c t (ix2 p kk) * xband (F := Ideal) (grid0.coords t) (xres m c t) (ix2 kk d))
      = bandDot (Aarr m c) (Xarr m c) (band (t.val / 8) p) d (t.val % 8) := by
  have e := (idx_facts t).2.2.2.2.2.2.2.2.2.2
  unfold bandDot
  refine Finset.sum_congr rfl fun kk _ => ?_
  rw [ablk_apply, xband_apply, xres_apply, e]

/-! ## What each case leaves in the scratch -/

theorem scr_A (c : Dev nD) (t : Fin cfg0.N) (h0 : t.val % 8 = 0) :
    scr m c t.val t.isLt = k0_pay2 (F := Ideal) (ablk m c t) (xband (F := Ideal) (grid0.coords t) (xres m c t)) (k0_pay1 (F := Ideal)) := by
  have h1 : ¬t.val % 8 = 7 := by omega
  show (outsAt0 m c t.val t.isLt).2 = _
  rw [outsAt0_A m c t h0 h1]
  dsimp only
  exact sout_A (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk m c 0 t) (iblk m c 1 t) (iblk m c 2 t) (iblk m c 3 t)

theorem scr_B (c : Dev nD) (t : Fin cfg0.N) (h0 : ¬t.val % 8 = 0) (h1 : ¬t.val % 8 = 7) :
    scr m c t.val t.isLt = k0_pay2 (F := Ideal) (ablk m c t) (xband (F := Ideal) (grid0.coords t) (xres m c t))
      (scr m c (t.val - 1) (Nat.lt_of_le_of_lt (Nat.sub_le _ _) t.isLt)) := by
  show (outsAt0 m c t.val t.isLt).2 = _
  rw [outsAt0_B m c t h0 h1]
  dsimp only
  exact sout_B (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2

theorem scr_C (c : Dev nD) (t : Fin cfg0.N) (h0 : ¬t.val % 8 = 0) (h1 : t.val % 8 = 7) :
    scr m c t.val t.isLt = k0_pay2 (F := Ideal) (ablk m c t) (xband (F := Ideal) (grid0.coords t) (xres m c t))
      (scr m c (t.val - 1) (Nat.lt_of_le_of_lt (Nat.sub_le _ _) t.isLt)) := by
  show (outsAt0 m c t.val t.isLt).2 = _
  rw [outsAt0_C m c t h0 h1]
  dsimp only
  exact sout_C (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2

/-- One point's step: the scratch after point `t` is the band's share added to the zero (first band of a row
    block) or to what the point before left. -/
theorem scr_step (c : Dev nD) (t : Fin cfg0.N) (p : Fin 1280) (d : Fin 128) :
    scr m c t.val t.isLt (ix2 p d)
      = (if t.val % 8 = 0 then (0 : EReal) else scr m c (t.val - 1) (Nat.lt_of_le_of_lt (Nat.sub_le _ _) t.isLt) (ix2 p d))
        + bandDot (Aarr m c) (Xarr m c) (band (t.val / 8) p) d (t.val % 8) := by
  by_cases h0 : t.val % 8 = 0
  · rw [if_pos h0, scr_A m c t h0, pay2_apply, pay1_apply, band_sum]
  · rw [if_neg h0]
    by_cases h1 : t.val % 8 = 7
    · rw [scr_C m c t h0 h1, pay2_apply, band_sum]
    · rw [scr_B m c t h0 h1, pay2_apply, band_sum]

/-- THE FOLD: the scratch after point `n`, at `(p, d)`, is the accumulator of row `(n / 8) · 1280 + p` after bands
    `0 … n % 8`. -/
theorem scr_at (c : Dev nD) : ∀ (n : ℕ) (h : n < cfg0.N) (p : Fin 1280) (d : Fin 128),
    scr m c n h (ix2 p d) = accum (Aarr m c) (Xarr m c) (band (n / 8) p) d (n % 8)
  | 0, h, p, d => by
    have e := scr_step m c ⟨0, h⟩ p d
    rw [if_pos (by rfl)] at e
    exact e
  | n + 1, h, p, d => by
    have hN : n + 1 < 64 := lt_of_lt_of_eq h N_0
    have e := scr_step m c ⟨n + 1, h⟩ p d
    by_cases h0 : (n + 1) % 8 = 0
    · rw [if_pos h0] at e
      rw [e, h0]
      rfl
    · rw [if_neg h0] at e
      have ih := scr_at c n (Nat.lt_of_succ_lt h) p d
      obtain ⟨k, hk⟩ : ∃ k, (n + 1) % 8 = k + 1 := ⟨(n + 1) % 8 - 1, by omega⟩
      have hk' : n % 8 = k := by omega
      have hd : n / 8 = (n + 1) / 8 := by omega
      rw [e, hk]
      show scr m c n _ (ix2 p d) + _ = accum (Aarr m c) (Xarr m c) (band ((n + 1) / 8) p) d k + bandDot (Aarr m c) (Xarr m c) (band ((n + 1) / 8) p) d (k + 1)
      rw [ih, hk', hd]

/-- THE OUTPUT BLOCK at the last band of a row block: the dense form of row `(t / 8) · 1280 + p`. -/
theorem out_at (c : Dev nD) (t : Fin cfg0.N) (h1 : t.val % 8 = 7) (p : Fin 1280) (o : Fin 128) :
    ((outsAt0 m c t.val t.isLt).1 : FVec Ideal S1280x128 .f32) (ix2 p o)
      = dense (Aarr m c) (Xarr m c) (Warr m c) (Barr m c) (band (t.val / 8) p) o := by
  have h0 : ¬t.val % 8 = 0 := by omega
  rw [outsAt0_C m c t h0 h1]
  dsimp only
  refine (congrFun (out_C (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2) (ix2 p o)).trans ?_
  show k0_pay3 (F := Ideal) (k0_pay2 (F := Ideal) (ablk m c t) (xband (F := Ideal) (grid0.coords t) (xres m c t)) (scr m c (t.val - 1) (Nat.lt_of_le_of_lt (Nat.sub_le _ _) t.isLt))) (wblk m c t) (bblk m c t) (ix2 p o) = _
  rw [← scr_C m c t h0 h1, pay3_apply, bblk_apply]
  unfold dense
  refine congrArg (fun s : EReal => s + Barr m c (ix2 (0 : Fin 1) o)) (Finset.sum_congr rfl fun d _ => ?_)
  rw [scr_at m c t.val t.isLt p d, wblk_apply, h1]

end Cert.KernelIdeal.KFold

end
-- ==== Proof.KernelArray.lean ====
/-
  From blocks to the result.

  The output window's block index is `(t / 8, 0)`: it stays put while a row block's eight bands run and is written
  back once, after the last band. What is written back then is the dense form of the block's 1280 rows, so the
  eight write-backs tile the [10240, 128] array with the dense form; the program's last operation keeps its first
  10000 rows.
-/
import proofs.«418839_j86114094285068_2_alg».proof.Proof.KernelFold
import Idealize.ShloMosaic.Lib.StableHlo.Run

-- membership in a block of a [10240, 128] array is checked coordinate by coordinate along the long axis
set_option maxRecDepth 16384

noncomputable section

namespace Cert.KernelIdeal.KArray

open Cert.KernelIdeal Cert.KernelIdeal.Gen Cert.KernelIdeal.KBody Cert.KernelIdeal.KFold Cert.GraphConv
open Idealize.ShloMosaic Idealize.ShloMosaic.TcCoe Idealize.SL.Sem Idealize.ShloMosaic.ValueIdx
open Idealize.ShloMosaic.Pipeline (Dat)
open scoped BigOperators

variable (m : (ℓ : Loc nD τ sig) → Buf (Elt Ideal) ℓ) (ρ : Dev nD → PrngReg)

/-- The whole [10240, 128] array the region leaves: the dense form at every row and feature. -/
abbrev G (c : Dev nD) : FVec Ideal S10240x128 .f32 :=
  fun i => dense (Aarr m c) (Xarr m c) (Warr m c) (Barr m c) ⟨(i 0).val, (i 0).isLt⟩ ⟨(i 1).val, (i 1).isLt⟩

/-- WHAT A WRITE-BACK WRITES: at the last band of row block `t / 8`, that block of the dense form. -/
theorem flushed_eq (c : Dev nD) (t : Fin cfg0.N) (hf : (cfg0.win 4).flush t = true) :
    (dats m 0 c).flushed 4 t = ((cfg0.win 4).blk t).view.read (Elt Ideal) (G m c) := by
  have h1 : t.val % 8 = 7 := (flush0_4 t).mp hf
  obtain ⟨-, -, -, -, -, -, -, -, e0, e1, -⟩ := idx_facts t
  have ht : t.val < 64 := lt_of_lt_of_eq t.isLt N_0
  show (cfg0.win 4).cut (grid0.coords t) ((dats m 0 c).after 4 t) = _
  rw [after0_4]
  funext j
  obtain ⟨p, o, rfl⟩ : ∃ (p : Fin 1280) (o : Fin 128), j = ix2 p o := ⟨j 0, j 1, eq_ix2 j⟩
  show ((outsAt0 m c t.val t.isLt).1 : FVec Ideal S1280x128 .f32) (ix2 p o) = G m c (((cfg0.win 4).blk t).view.emb (ix2 p o))
  rw [out_at m c t h1 p o]
  show dense _ _ _ _ (band (t.val / 8) p) o = dense _ _ _ _ _ _
  have r0 : band (t.val / 8) p = ⟨((((cfg0.win 4).blk t).view.emb (ix2 p o)) 0).val, ((((cfg0.win 4).blk t).view.emb (ix2 p o)) 0).isLt⟩ := by
    apply Fin.ext
    show ((t.val / 8) % 8) * 1280 + p.val = win0_4.index t (0 : Fin 2) * 1280 + 1 * p.val
    rw [e0]; omega
  have r1 : o = ⟨((((cfg0.win 4).blk t).view.emb (ix2 p o)) 1).val, ((((cfg0.win 4).blk t).view.emb (ix2 p o)) 1).isLt⟩ := by
    apply Fin.ext
    show o.val = win0_4.index t (1 : Fin 2) * 128 + 1 * o.val
    rw [e1]; omega
  rw [← r0, ← r1]

/-- An index of the array is in point `t`'s output block iff each coordinate is in the block's range on its axis. -/
theorem mem_blk (t : Fin cfg0.N) (i : S10240x128.Idx) :
    i ∈ ((cfg0.win 4).blk t).view.set ↔ ∀ a : Fin 2, win0_4.index t a * S1280x128.size a ≤ (i a).val ∧ (i a).val < win0_4.index t a * S1280x128.size a + S1280x128.size a := by
  show i ∈ ((View.whole main_v20).slice (win0_4.rect t)).set ↔ _
  rw [View.set_slice_whole, Rect.mem_set_unit]
  exact Iff.rfl

/-- Every index is in the block some write-back writes: row `r` in that of the last band of row block `r / 1280`. -/
theorem cover (i : S10240x128.Idx) : ∃ t : Fin cfg0.N, (cfg0.win 4).flush t = true ∧ i ∈ ((cfg0.win 4).blk t).view.set := by
  have hi0 : (i 0).val < 10240 := (i 0).isLt
  have hi1 : (i 1).val < 128 := (i 1).isLt
  have hN : cfg0.N = 64 := N_0
  let t : Fin cfg0.N := ⟨(i 0).val / 1280 * 8 + 7, by rw [hN]; omega⟩
  have htv : t.val = (i 0).val / 1280 * 8 + 7 := rfl
  obtain ⟨-, -, -, -, -, -, -, -, e0, e1, -⟩ := idx_facts t
  refine ⟨t, (flush0_4 t).mpr (by rw [htv]; omega), ?_⟩
  rw [mem_blk]
  intro a
  match a with
  | ⟨0, _⟩ =>
    show win0_4.index t (0 : Fin 2) * 1280 ≤ (i 0).val ∧ (i 0).val < win0_4.index t (0 : Fin 2) * 1280 + 1280
    rw [e0, htv]; omega
  | ⟨1, _⟩ =>
    show win0_4.index t (1 : Fin 2) * 128 ≤ (i 1).val ∧ (i 1).val < win0_4.index t (1 : Fin 2) * 128 + 128
    rw [e1]; omega

/-- THE ARRAY after the region: the dense form everywhere. -/
theorem final (c : Dev nD) : (dats m 0 c).arrAt 4 cfg0.N = G m c :=
  (dats m 0 c).arrAt_eq_of_cover 4 (G m c) (flushed_eq m c) cover

/-- The program's result as the last operation leaves it: the first 10000 rows of that array. -/
theorem tail_eq (c : Dev nD) :
    Pipeline.afterTail₀ cfgs (dats m) 0 (V0 m) [hostOps1] c main_v21
      = extractStridedSlice S10000x128 ![0, 0] (G m c) slices_S10240x128_S10000x128_0_0 := by
  unfold Pipeline.afterTail₀
  show StableHlo.after hostOps1 _ (Proc.devRef .tc main_v21) = _
  after_results
  exact congrArg (fun a => extractStridedSlice S10000x128 ![0, 0] a slices_S10240x128_S10000x128_0_0)
    ((Pipeline.withArrays_arr spec0 launch0.win.arr_inj c (V0 m c) (fun w => (dats m 0 c).arrAt w (cfgs 0).N) 4).trans (final m c))

/-- The array at an index whose coordinates are `(n, o)`, `n` among the first 10000 rows. -/
theorem G_at (c : Dev nD) (n : Fin 10000) (o : Fin 128) (i : S10240x128.Idx) (hn : (i 0).val = n.val) (ho : (i 1).val = o.val) :
    G m c i = dense (Aarr m c) (Xarr m c) (Warr m c) (Barr m c) (padRow n) o := by
  have e0 : (⟨(i 0).val, (i 0).isLt⟩ : Fin 10240) = padRow n := Fin.ext hn
  have e1 : (⟨(i 1).val, (i 1).isLt⟩ : Fin 128) = o := Fin.ext ho
  show dense _ _ _ _ ⟨(i 0).val, (i 0).isLt⟩ ⟨(i 1).val, (i 1).isLt⟩ = _
  rw [e0, e1]

/-- The program's result: the first 10000 rows of the dense form. -/
abbrev result (c : Dev nD) : FVec Ideal S10000x128 .f32 :=
  extractStridedSlice S10000x128 ![0, 0] (G m c) slices_S10240x128_S10000x128_0_0

/-- The result at node `n`, feature `o`: the dense form at row `n`. -/
theorem result_apply (c : Dev nD) (n : Fin 10000) (o : Fin 128) :
    result m c (ix2 n o) = dense (Aarr m c) (Xarr m c) (Warr m c) (Barr m c) (padRow n) o := by
  unfold result extractStridedSlice
  exact G_at m c n o _ (by show 0 + n.val = n.val; omega) (by show 0 + o.val = o.val; omega)

/-- THE RUN, READ: every weakly fair execution terminates with the result at the first 10000 rows of the dense form
    of the arrays the region found, and the six arguments unchanged. -/
theorem run : θ_run defs (onTc (τ := τ) (main (F := Ideal))) ⟨m, fun _ => 0, ρ⟩ fun r => ∀ c : Dev nD,
      r.2.mem ((c.tc : Thread nD τ).loc main_v21) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(((h c).2 main_v21 (Pipeline.mem_restRefs_of main_v21 (by decide) (by decide))).trans (tail_eq m c)),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c))⟩)
    (run_main m ρ)

end Cert.KernelIdeal.KArray

end
-- ==== Proof.LibScatterAddPairs.lean ====
/-
  GENERAL LEMMA. A `stablehlo.scatter` with an `add` body whose index vectors are (row, column) PAIRS, read at one element.

  The operand is a rank-2 array [R, N]; the scatter indices are a rank-3 array [P, L, 2] whose last axis holds the
  pair; the updates are a rank-2 array [P, L]; both operand axes are scattered (no window axis). Update (p, l) lands
  on the operand element whose row is the SIGNED value of index word (p, l, 0) and whose column is the signed value of
  index word (p, l, 1), and is dropped when either lies outside the operand. Over the extended reals the result at
  element (r, b) is the operand's element plus the sum of the updates that land there (`hostScatterAdd_pairs_apply`).
-/
import Idealize.ShloMosaic.PureOps.Ideal
import Idealize.ShloMosaic.Lib.ValueIdx

noncomputable section

namespace Idealize.ShloMosaic.ScatterPairs

open Idealize.ShloMosaic Idealize.ShloMosaic.ValueIdx

/-- An update lands on element `i` exactly when, on every operand axis, start plus window coordinate is `i`'s
    coordinate (as integers): in range is then automatic, and out of range matches no element. -/
theorem resultIdx?_eq_some_iff {s si u : Shape} (d : ScatterDims s si u) {w : Nat} (j : u.Idx) (idx : IVec si w) (i : s.Idx) :
    d.resultIdx? j idx = some i ↔ ∀ a, d.start j idx a + (d.window j a : Int) = ((i a).val : Int) := by
  unfold ScatterDims.resultIdx?
  constructor
  · intro h
    split at h
    · rename_i hin
      intro a
      have e := congrFun (Option.some.inj h) a
      have e' : (d.start j idx a + (d.window j a : Int)).toNat = (i a).val := congrArg Fin.val e
      have := (hin a).1
      omega
    · exact absurd h (by simp)
  · intro h
    have hin : ∀ a, 0 ≤ d.start j idx a + (d.window j a : Int) ∧ d.start j idx a + (d.window j a : Int) < s.size a := by
      intro a
      have := (i a).isLt
      rw [h a]
      omega
    rw [dif_pos hin]
    congr 1
    funext a
    apply Fin.ext
    show (d.start j idx a + (d.window j a : Int)).toNat = (i a).val
    rw [h a]
    omega

variable {R N P L : Nat}

/-- For the pair dimension numbers, update `(p, l)` lands on `(r, b)` exactly when its two index words read, signed,
    `r` and `b`. -/
theorem resultIdx?_pairs (d : ScatterDims ⟨2, ![R, N]⟩ ⟨3, ![P, L, 2]⟩ ⟨2, ![P, L]⟩)
    (h1 : d.updateWindowDims = []) (h2 : d.insertedWindowDims = [0, 1]) (h3 : d.scatterDimsToOperandDims = [0, 1])
    (h4 : d.indexVectorDim = 2) {w : Nat} (j : (⟨2, ![P, L]⟩ : Shape).Idx) (idx : IVec ⟨3, ![P, L, 2]⟩ w)
    (i : (⟨2, ![R, N]⟩ : Shape).Idx) :
    d.resultIdx? j idx = some i ↔
      (idx (ix3 (j 0) (j 1) (0 : Fin 2))).toInt = ((i 0).val : Int) ∧ (idx (ix3 (j 0) (j 1) (1 : Fin 2))).toInt = ((i 1).val : Int) := by
  obtain ⟨uw, iw, sd, iv, wf⟩ := d
  simp only at h1 h2 h3 h4
  subst h1 h2 h3 h4
  rw [resultIdx?_eq_some_iff]
  have hw : ∀ a : Fin 2, ScatterDims.window (s := ⟨2, ![R, N]⟩) ⟨[], [0, 1], [0, 1], 2, wf⟩ j a = 0 := by
    intro a
    unfold ScatterDims.window
    rw [dif_neg]
    show a ∉ (List.finRange 2).filter (· ∉ ([0, 1] : List (Fin 2)))
    fin_cases a <;> decide
  have hmem : ∀ a : Fin 2, a ∈ ([0, 1] : List (Fin 2)) := by intro a; fin_cases a <;> decide
  have hs : ∀ a : Fin 2, ScatterDims.start (s := ⟨2, ![R, N]⟩) ⟨[], [0, 1], [0, 1], 2, wf⟩ j idx a
      = (idx (ix3 (j 0) (j 1) a)).toInt := by
    intro a
    unfold ScatterDims.start
    rw [dif_pos (hmem a)]
    congr 2
    funext b
    unfold ScatterDims.siIdx
    match b with
    | ⟨0, _⟩ =>
      rw [dif_neg (show ¬ (0 : Nat) = 2 by decide)]
      unfold ScatterDims.siCoord
      apply Fin.ext
      rfl
    | ⟨1, _⟩ =>
      rw [dif_neg (show ¬ (1 : Nat) = 2 by decide)]
      unfold ScatterDims.siCoord
      apply Fin.ext
      rfl
    | ⟨2, _⟩ =>
      rw [dif_pos rfl]
      apply Fin.ext
      show List.idxOf a ([0, 1] : List (Fin 2)) = a.val
      fin_cases a <;> rfl
  constructor
  · intro h
    have h0 := h 0
    have h1 := h 1
    rw [hs, hw] at h0 h1
    exact ⟨by simpa using h0, by simpa using h1⟩
  · rintro ⟨e0, e1⟩ a
    rw [hs, hw]
    match a with
    | ⟨0, _⟩ => simpa using e0
    | ⟨1, _⟩ => simpa using e1

open scoped BigOperators

/-- The scatter-add at element `i`, over the extended reals: the operand's element plus, over ALL updates, the
    update where its pair reads `i` and nothing where it does not. -/
theorem hostScatterAdd_pairs_apply (d : ScatterDims ⟨2, ![R, N]⟩ ⟨3, ![P, L, 2]⟩ ⟨2, ![P, L]⟩)
    (h1 : d.updateWindowDims = []) (h2 : d.insertedWindowDims = [0, 1]) (h3 : d.scatterDimsToOperandDims = [0, 1])
    (h4 : d.indexVectorDim = 2) {w : Nat} (x : (⟨2, ![R, N]⟩ : Shape).Idx → EReal) (idx : IVec ⟨3, ![P, L, 2]⟩ w)
    (upd : (⟨2, ![P, L]⟩ : Shape).Idx → EReal) (i : (⟨2, ![R, N]⟩ : Shape).Idx) :
    Ideal.hostScatterAdd d x idx upd i
      = x i + ∑ p : Fin P, ∑ l : Fin L,
          if (idx (ix3 p l (0 : Fin 2))).toInt = ((i 0).val : Int) ∧ (idx (ix3 p l (1 : Fin 2))).toInt = ((i 1).val : Int)
          then upd (ix2 p l) else 0 := by
  unfold Ideal.hostScatterAdd
  rw [Finset.sum_filter, sum_idx2]
  congr 1
  refine Finset.sum_congr rfl fun p _ => Finset.sum_congr rfl fun l _ => ?_
  have e := resultIdx?_pairs d h1 h2 h3 h4 (ix2 p l) idx i
  by_cases hc : (idx (ix3 p l (0 : Fin 2))).toInt = ((i 0).val : Int) ∧ (idx (ix3 p l (1 : Fin 2))).toInt = ((i 1).val : Int)
  · rw [if_pos (e.mpr hc), if_pos hc]
  · rw [if_neg (fun h => hc (e.mp h)), if_neg hc]

/-- When update `(p, l)`'s row word reads its own row `p` (the rows are an iota), only row `r`'s updates can land on
    `(r, b)`: the result is the operand's element plus the sum over that row's `L` slots of the update whose column word
    reads `b`. -/
theorem hostScatterAdd_ownRow_apply (d : ScatterDims ⟨2, ![R, N]⟩ ⟨3, ![R, L, 2]⟩ ⟨2, ![R, L]⟩)
    (h1 : d.updateWindowDims = []) (h2 : d.insertedWindowDims = [0, 1]) (h3 : d.scatterDimsToOperandDims = [0, 1])
    (h4 : d.indexVectorDim = 2) {w : Nat} (x : (⟨2, ![R, N]⟩ : Shape).Idx → EReal) (idx : IVec ⟨3, ![R, L, 2]⟩ w)
    (upd : (⟨2, ![R, L]⟩ : Shape).Idx → EReal) (hrow : ∀ (p : Fin R) (l : Fin L), (idx (ix3 p l (0 : Fin 2))).toInt = (p.val : Int))
    (r : Fin R) (b : Fin N) :
    Ideal.hostScatterAdd d x idx upd (ix2 r b)
      = x (ix2 r b) + ∑ l : Fin L, if (idx (ix3 r l (1 : Fin 2))).toInt = (b.val : Int) then upd (ix2 r l) else 0 := by
  rw [hostScatterAdd_pairs_apply d h1 h2 h3 h4]
  show x (ix2 r b) + (∑ p : Fin R, ∑ l : Fin L,
      if (idx (ix3 p l (0 : Fin 2))).toInt = (r.val : Int) ∧ (idx (ix3 p l (1 : Fin 2))).toInt = (b.val : Int)
      then upd (ix2 p l) else 0) = _
  congr 1
  rw [Finset.sum_eq_single r]
  · refine Finset.sum_congr rfl fun l _ => ?_
    simp only [hrow, true_and]
  · intro p _ hp
    refine Finset.sum_eq_zero fun l _ => ?_
    rw [if_neg]
    rintro ⟨e, -⟩
    rw [hrow] at e
    exact hp (Fin.ext (by exact_mod_cast e))
  · intro h
    exact absurd (Finset.mem_univ _) h

end Idealize.ShloMosaic.ScatterPairs

end
-- ==== Proof.LibPairScatter.lean ====
/-
  GENERAL LEMMA. An accumulating scatter whose index vectors are (row, column) PAIRS held in a rank-2 array, read at
  one element.

  What `x.at[rows, cols].add(u)` of a rank-2 operand `x : [R, N]` at two vectors of `n` indices lowers to: a
  `stablehlo.scatter` with an `add` body, update_window_dims `[]`, inserted_window_dims `[0, 1]`,
  scatter_dims_to_operand_dims `[0, 1]`, index_vector_dim `1`, over scatter indices `[n, 2]` (row `e` holds the pair
  of update `e`) and updates `[n]`. Both operand axes are scattered and there is no window axis: update `e` lands on
  the operand element whose row is the SIGNED value of index word `(e, 0)` and whose column is the signed value of
  index word `(e, 1)`, neither clamped, and is dropped when either lies outside the operand. Over the extended reals
  the result at `(r, b)` is therefore `x[r, b]` plus the sum of `u[e]` over the updates `e` whose pair reads
  `(r, b)`.

  • `resultIdx?_pair`: update `e` lands on `(r, b)` exactly when its two index words read, signed, `r` and `b`.
  • `hostScatterAdd_pair_apply`: the read of the exact sum; `scatterAdd_pair_apply` the same read of the host's
    `Host.scatterAdd` at the exact instance, at any float format (which is that sum by definition).

  The lemmas are general in `R`, `N`, `n` and the index width `w`, and take the dimension numbers as a record with
  four equations on its fields, so that they apply to any record a program prints with these numbers.
-/
import Idealize.ShloMosaic.PureOps.Ideal
import Idealize.ShloMosaic.Lib.ValueIdx
import proofs.«418839_j86114094285068_2_alg».proof.Proof.LibScatterAddPairs

noncomputable section

namespace Idealize.ShloMosaic.PairScatter

open Idealize.ShloMosaic Idealize.ShloMosaic.ValueIdx
open scoped BigOperators

variable {R N n : Nat}

/-- For the pair dimension numbers over an [n, 2] index array, update `e` lands on `(r, b)` exactly when its two
    index words read, signed, `r` and `b`. -/
theorem resultIdx?_pair (d : ScatterDims ⟨2, ![R, N]⟩ ⟨2, ![n, 2]⟩ ⟨1, ![n]⟩)
    (h1 : d.updateWindowDims = []) (h2 : d.insertedWindowDims = [0, 1]) (h3 : d.scatterDimsToOperandDims = [0, 1])
    (h4 : d.indexVectorDim = 1) {w : Nat} (e : Fin n) (idx : IVec ⟨2, ![n, 2]⟩ w) (r : Fin R) (b : Fin N) :
    d.resultIdx? (ix1 e) idx = some (ix2 r b) ↔
      (idx (ix2 e (0 : Fin 2))).toInt = (r.val : Int) ∧ (idx (ix2 e (1 : Fin 2))).toInt = (b.val : Int) := by
  obtain ⟨uw, iw, sd, iv, wf⟩ := d
  simp only at h1 h2 h3 h4
  subst h1 h2 h3 h4
  rw [ScatterPairs.resultIdx?_eq_some_iff]
  -- both operand axes are inserted window axes: the window coordinate is 0 on each
  have hw : ∀ a : Fin 2, ScatterDims.window (s := ⟨2, ![R, N]⟩) (si := ⟨2, ![n, 2]⟩) (u := ⟨1, ![n]⟩)
      ⟨[], [0, 1], [0, 1], 1, wf⟩ (ix1 e) a = 0 := by
    intro a
    unfold ScatterDims.window
    rw [dif_neg]
    show a ∉ (List.finRange 2).filter (· ∉ ([0, 1] : List (Fin 2)))
    fin_cases a <;> decide
  have hmem : ∀ a : Fin 2, a ∈ ([0, 1] : List (Fin 2)) := by intro a; fin_cases a <;> decide
  -- on operand axis a the start is index word (e, a): the update's one coordinate e on the index array's axis 0, the
  -- component's number a on the index vector's axis 1
  have hs : ∀ a : Fin 2, ScatterDims.start (s := ⟨2, ![R, N]⟩) (si := ⟨2, ![n, 2]⟩) (u := ⟨1, ![n]⟩)
      ⟨[], [0, 1], [0, 1], 1, wf⟩ (ix1 e) idx a = (idx (ix2 e a)).toInt := by
    intro a
    unfold ScatterDims.start
    rw [dif_pos (hmem a)]
    congr 2
    funext c
    unfold ScatterDims.siIdx
    match c with
    | ⟨0, _⟩ =>
      rw [dif_neg (show ¬ (0 : Nat) = 1 by decide)]
      unfold ScatterDims.siCoord
      apply Fin.ext
      rfl
    | ⟨1, _⟩ =>
      rw [dif_pos rfl]
      apply Fin.ext
      show List.idxOf a ([0, 1] : List (Fin 2)) = a.val
      fin_cases a <;> rfl
  constructor
  · intro h
    have h0 := h 0
    have h1 := h 1
    rw [hs, hw] at h0 h1
    have h0' : (idx (ix2 e (0 : Fin 2))).toInt + ((0 : ℕ) : Int) = (r.val : Int) := h0
    have h1' : (idx (ix2 e (1 : Fin 2))).toInt + ((0 : ℕ) : Int) = (b.val : Int) := h1
    exact ⟨by omega, by omega⟩
  · rintro ⟨e0, e1⟩ a
    rw [hs, hw]
    match a with
    | ⟨0, _⟩ => simpa using e0
    | ⟨1, _⟩ => simpa using e1

/-- The accumulating pair scatter read at (r, b), over the extended reals: the operand there plus the sum of the
    updates whose pair of signed index words is (r, b). -/
theorem hostScatterAdd_pair_apply (d : ScatterDims ⟨2, ![R, N]⟩ ⟨2, ![n, 2]⟩ ⟨1, ![n]⟩)
    (h1 : d.updateWindowDims = []) (h2 : d.insertedWindowDims = [0, 1]) (h3 : d.scatterDimsToOperandDims = [0, 1])
    (h4 : d.indexVectorDim = 1) {w : Nat} (x : (⟨2, ![R, N]⟩ : Shape).Idx → EReal) (idx : IVec ⟨2, ![n, 2]⟩ w)
    (upd : (⟨1, ![n]⟩ : Shape).Idx → EReal) (r : Fin R) (b : Fin N) :
    Ideal.hostScatterAdd d x idx upd (ix2 r b)
      = x (ix2 r b) + ∑ e ∈ Finset.univ.filter (fun e : Fin n =>
          (idx (ix2 e (0 : Fin 2))).toInt = (r.val : Int) ∧ (idx (ix2 e (1 : Fin 2))).toInt = (b.val : Int)),
          upd (ix1 e) := by
  unfold Ideal.hostScatterAdd
  congr 1
  -- the update indices landing on (r, b) are the e whose pair reads (r, b): re-index the sum by e
  have key : ∀ u : (⟨1, ![n]⟩ : Shape).Idx,
      u ∈ Finset.univ.filter (fun u => d.resultIdx? u idx = some (ix2 r b)) →
      ∃ a : Fin n, u = ix1 a ∧
        ((idx (ix2 a (0 : Fin 2))).toInt = (r.val : Int) ∧ (idx (ix2 a (1 : Fin 2))).toInt = (b.val : Int)) := by
    intro u hu
    obtain ⟨a, rfl⟩ : ∃ a : Fin n, u = ix1 a := ⟨u 0, eq_ix1 u⟩
    exact ⟨a, rfl, (resultIdx?_pair d h1 h2 h3 h4 a idx r b).mp (Finset.mem_filter.mp hu).2⟩
  refine Finset.sum_nbij' (fun u => (u 0 : Fin n)) (fun e => ix1 e) ?_ ?_ ?_ ?_ ?_
  · intro u hu
    obtain ⟨a, rfl, ha⟩ := key u hu
    exact Finset.mem_filter.mpr ⟨Finset.mem_univ _, ha⟩
  · intro e he
    exact Finset.mem_filter.mpr ⟨Finset.mem_univ _,
      (resultIdx?_pair d h1 h2 h3 h4 e idx r b).mpr (Finset.mem_filter.mp he).2⟩
  · intro u hu
    obtain ⟨a, rfl, _⟩ := key u hu
    rfl
  · intro e _; rfl
  · intro u hu
    obtain ⟨a, rfl, _⟩ := key u hu
    rfl

/-- The host's accumulating pair scatter at the exact instance, at any float format, read at (r, b): by definition it
    is the exact sum above. -/
theorem scatterAdd_pair_apply {φ : FTy} (d : ScatterDims ⟨2, ![R, N]⟩ ⟨2, ![n, 2]⟩ ⟨1, ![n]⟩)
    (h1 : d.updateWindowDims = []) (h2 : d.insertedWindowDims = [0, 1]) (h3 : d.scatterDimsToOperandDims = [0, 1])
    (h4 : d.indexVectorDim = 1) {w : Nat} (x : FVec Ideal ⟨2, ![R, N]⟩ φ) (idx : IVec ⟨2, ![n, 2]⟩ w)
    (upd : FVec Ideal ⟨1, ![n]⟩ φ) (r : Fin R) (b : Fin N) :
    Host.scatterAdd d x idx upd (ix2 r b)
      = x (ix2 r b) + ∑ e ∈ Finset.univ.filter (fun e : Fin n =>
          (idx (ix2 e (0 : Fin 2))).toInt = (r.val : Int) ∧ (idx (ix2 e (1 : Fin 2))).toInt = (b.val : Int)),
          upd (ix1 e) :=
  hostScatterAdd_pair_apply d h1 h2 h3 h4 x idx upd r b

end Idealize.ShloMosaic.PairScatter

end
-- ==== Proof.HostArrays.lean ====
import proofs.«418839_j86114094285068_2_alg».proof.Proof.Gen.KernelIdeal.Frame
import proofs.«418839_j86114094285068_2_alg».proof.Proof.LibPairScatter
import proofs.«418839_j86114094285068_2_alg».proof.Proof.Spec
import Idealize.ShloMosaic.Lib.Pipeline.Value
import Idealize.ShloMosaic.Lib.StableHlo.Run
import Idealize.ShloMosaic.Lib.DynamicIndex
import Idealize.ShloMosaic.Lib.KernelVsHost
import Idealize.ShloMosaic.PureOps.Ideal.Laws

noncomputable section

namespace Cert.KernelIdeal.HostArrays

open Cert.KernelIdeal Cert.KernelIdeal.Gen Idealize.ShloMosaic Idealize.ShloMosaic.TcCoe Idealize.SL.Sem Idealize.ShloMosaic.ValueIdx
open scoped BigOperators

variable (m : (ℓ : Loc nD τ sig) → Buf (Elt Ideal) ℓ)

/-! The six argument arrays as launched, and the four arrays the region finds, each at its literal type. -/
abbrev xArr (c : Dev nD) : FVec Ideal S10000x128 .f32 := m ((c : Thread nD τ).loc main_arg0)
abbrev srcArr (c : Dev nD) : IVec S640000 32 := m ((c : Thread nD τ).loc main_arg1)
abbrev dstArr (c : Dev nD) : IVec S640000 32 := m ((c : Thread nD τ).loc main_arg2)
abbrev adjArr (c : Dev nD) : FVec Ideal S640000 .f32 := m ((c : Thread nD τ).loc main_arg3)
abbrev wArr (c : Dev nD) : FVec Ideal S128x128 .f32 := m ((c : Thread nD τ).loc main_arg4)
abbrev bArr (c : Dev nD) : FVec Ideal S128 .f32 := m ((c : Thread nD τ).loc main_arg5)
abbrev adjMat (c : Dev nD) : FVec Ideal S10240x10240 .bf16 := V m c main_v15
abbrev table (c : Dev nD) : FVec Ideal S10240x128 .bf16 := V m c main_v17
abbrev weightsT (c : Dev nD) : FVec Ideal S128x128 .f32 := V m c main_v18
abbrev biasRow (c : Dev nD) : FVec Ideal S1x128 .f32 := V m c main_v19

/-! ## The operations read at an index, over variables of the literal types -/

/-- The index wrap `select (i < 0) (i + 10240) i` (a negative index counts from the end) is `i` itself where `i` is
    not negative. -/
theorem wrap_at (i : IVec S640000 32) (hb : S_.BroadcastsInDim S640000 (![] : Fin 0 → Fin S640000.rank)) (e : Fin 640000)
    (h : 0 ≤ (i (ix1 e)).toInt) :
    select (cmpi .slt i (broadcastInDim S640000 ![] hb (constantI S_ 32 0#32)))
        (addi i (broadcastInDim S640000 ![] hb (constantI S_ 32 10240#32))) i (ix1 e) = i (ix1 e) := by
  -- the broadcast of the zero word is the zero splat
  have hz : broadcastInDim S640000 ![] hb (constantI S_ 32 0#32) = constantI S640000 32 0#32 := rfl
  rw [hz]
  exact select_slt_zero_of_nonneg i _ _ (ix1 e) h

/-- A vector laid out as a one-column matrix reads, at row `e`, its entry `e`. -/
theorem column_at (a : IVec S640000 32) (hb1 : S640000.BroadcastsInDim S640000x1 (![0] : Fin 1 → Fin S640000x1.rank))
    (e : Fin 640000) :
    broadcastInDim S640000x1 ![0] hb1 a (ix2 e (0 : Fin 1)) = a (ix1 e) := by
  refine broadcastInDim_apply _ hb1 a (ix2 e (0 : Fin 1)) (ix1 e) ?_
  intro b
  match b with
  | ⟨0, _⟩ => rfl

/-- Two one-column matrices side by side: column 0 of row `e` is the first vector's entry `e`. -/
theorem pairs_left (a b : IVec S640000 32) (hb1 : S640000.BroadcastsInDim S640000x1 (![0] : Fin 1 → Fin S640000x1.rank))
    (hc : Shape.Concatenates [S640000x1, S640000x1] S640000x2 1) (e : Fin 640000) :
    concatenate S640000x2 1 [⟨S640000x1, broadcastInDim S640000x1 ![0] hb1 a⟩, ⟨S640000x1, broadcastInDim S640000x1 ![0] hb1 b⟩] hc
        (ix2 e (0 : Fin 2)) = a (ix1 e) := by
  refine (concatenate_pair_apply_left (t := S640000x2) (s₁ := S640000x1) (s₂ := S640000x1) (1 : Fin 2)
    (broadcastInDim S640000x1 ![0] hb1 a) (broadcastInDim S640000x1 ![0] hb1 b) hc (ix2 e (0 : Fin 2)) rfl
    (ix2 e (0 : Fin 1)) ?_).trans (column_at a hb1 e)
  intro k
  match k with
  | ⟨0, _⟩ => rfl
  | ⟨1, _⟩ => rfl

/-- … and column 1 of row `e` is the second vector's entry `e`. -/
theorem pairs_right (a b : IVec S640000 32) (hb1 : S640000.BroadcastsInDim S640000x1 (![0] : Fin 1 → Fin S640000x1.rank))
    (hc : Shape.Concatenates [S640000x1, S640000x1] S640000x2 1) (e : Fin 640000) :
    concatenate S640000x2 1 [⟨S640000x1, broadcastInDim S640000x1 ![0] hb1 a⟩, ⟨S640000x1, broadcastInDim S640000x1 ![0] hb1 b⟩] hc
        (ix2 e (1 : Fin 2)) = b (ix1 e) := by
  refine (concatenate_pair_apply_right (t := S640000x2) (s₁ := S640000x1) (s₂ := S640000x1) (1 : Fin 2)
    (broadcastInDim S640000x1 ![0] hb1 a) (broadcastInDim S640000x1 ![0] hb1 b) hc (ix2 e (1 : Fin 2)) rfl rfl
    (ix2 e (0 : Fin 1)) ?_ ?_).trans (column_at b hb1 e)
  · intro k hk
    match k with
    | ⟨0, _⟩ => rfl
    | ⟨1, _⟩ => exact absurd rfl hk
  · rfl

/-- The scatter of the edge weights into a zero matrix at the wrapped (destination, source) pairs, narrowed: at
    `(n, j)` it is the zero plus the weights of the edges from `j` to `n`, when no index is negative. -/
theorem adjacency_at (d : ScatterDims S10240x10240 S640000x2 S640000)
    (h1 : d.updateWindowDims = []) (h2 : d.insertedWindowDims = [0, 1]) (h3 : d.scatterDimsToOperandDims = [0, 1])
    (h4 : d.indexVectorDim = 1)
    (hb0 : S_.BroadcastsInDim S10240x10240 (![] : Fin 0 → Fin S10240x10240.rank))
    (hb : S_.BroadcastsInDim S640000 (![] : Fin 0 → Fin S640000.rank))
    (hb1 : S640000.BroadcastsInDim S640000x1 (![0] : Fin 1 → Fin S640000x1.rank))
    (hc : Shape.Concatenates [S640000x1, S640000x1] S640000x2 1)
    (hlt : FTy.bits .bf16 < FTy.bits .f32)
    (dst src : IVec S640000 32) (adj : FVec Ideal S640000 .f32)
    (hdst : ∀ e : Fin 640000, 0 ≤ (dst (ix1 e)).toInt) (hsrc : ∀ e : Fin 640000, 0 ≤ (src (ix1 e)).toInt)
    (n j : Fin 10240) :
    (truncf .bf16 (Host.scatterAdd d (broadcastInDim S10240x10240 ![] hb0 (constant (F := Ideal) S_ .f32 0x00000000#32))
        (concatenate S640000x2 1
          [⟨S640000x1, broadcastInDim S640000x1 ![0] hb1
              (select (cmpi .slt dst (broadcastInDim S640000 ![] hb (constantI S_ 32 0#32)))
                (addi dst (broadcastInDim S640000 ![] hb (constantI S_ 32 10240#32))) dst)⟩,
           ⟨S640000x1, broadcastInDim S640000x1 ![0] hb1
              (select (cmpi .slt src (broadcastInDim S640000 ![] hb (constantI S_ 32 0#32)))
                (addi src (broadcastInDim S640000 ![] hb (constantI S_ 32 10240#32))) src)⟩] hc) adj) hlt
      : FVec Ideal S10240x10240 .bf16) (ix2 n j)
      = 0 + ∑ e ∈ Finset.univ.filter (fun e : Fin 640000 =>
          (dst (ix1 e)).toInt = (n.val : ℤ) ∧ (src (ix1 e)).toInt = (j.val : ℤ)), adj (ix1 e) := by
  -- the index pair of edge e is (dst e, src e): neither is wrapped
  have hL : ∀ e : Fin 640000, concatenate S640000x2 1
      [⟨S640000x1, broadcastInDim S640000x1 ![0] hb1
          (select (cmpi .slt dst (broadcastInDim S640000 ![] hb (constantI S_ 32 0#32)))
            (addi dst (broadcastInDim S640000 ![] hb (constantI S_ 32 10240#32))) dst)⟩,
       ⟨S640000x1, broadcastInDim S640000x1 ![0] hb1
          (select (cmpi .slt src (broadcastInDim S640000 ![] hb (constantI S_ 32 0#32)))
            (addi src (broadcastInDim S640000 ![] hb (constantI S_ 32 10240#32))) src)⟩] hc (ix2 e (0 : Fin 2))
      = dst (ix1 e) := fun e => (pairs_left _ _ hb1 hc e).trans (wrap_at dst hb e (hdst e))
  have hR : ∀ e : Fin 640000, concatenate S640000x2 1
      [⟨S640000x1, broadcastInDim S640000x1 ![0] hb1
          (select (cmpi .slt dst (broadcastInDim S640000 ![] hb (constantI S_ 32 0#32)))
            (addi dst (broadcastInDim S640000 ![] hb (constantI S_ 32 10240#32))) dst)⟩,
       ⟨S640000x1, broadcastInDim S640000x1 ![0] hb1
          (select (cmpi .slt src (broadcastInDim S640000 ![] hb (constantI S_ 32 0#32)))
            (addi src (broadcastInDim S640000 ![] hb (constantI S_ 32 10240#32))) src)⟩] hc (ix2 e (1 : Fin 2))
      = src (ix1 e) := fun e => (pairs_right _ _ hb1 hc e).trans (wrap_at src hb e (hsrc e))
  -- a narrowing of the float format is the identity on the extended reals
  rw [truncf_apply, PairScatter.scatterAdd_pair_apply d h1 h2 h3 h4]
  simp only [hL, hR]
  -- the operand is the zero splat
  have h0 : broadcastInDim S10240x10240 ![] hb0 (constant (F := Ideal) S_ .f32 0x00000000#32) (ix2 n j) = 0 :=
    Ideal.ofBits_zero_f32
  rw [h0]

/-- `x` padded below by 240 rows of `v`: a row below 10000 reads `x`, a later row reads `v`. -/
theorem padRows_at (x : FVec Ideal S10000x128 .f32) (v : FVec Ideal S_ .f32)
    (h : S10000x128.Pads (![0, 0] : Fin 2 → Nat) ![240, 0] ![0, 0] S10240x128) (hu : 0 < S_.numel)
    (j : Fin 10240) (d : Fin 128) :
    pad S10240x128 ![0, 0] ![240, 0] ![0, 0] x v h hu (ix2 j d)
      = if hj : j.val < 10000 then x (ix2 (⟨j.val, hj⟩ : Fin 10000) d) else v ix0 := by
  by_cases hj : j.val < 10000
  · rw [dif_pos hj]
    refine pad_apply_of_inside _ _ _ x v h hu (ix2 j d) (ix2 (⟨j.val, hj⟩ : Fin 10000) d) ?_
    intro a
    match a with
    | ⟨0, _⟩ => show j.val = 0 + j.val * (0 + 1); omega
    | ⟨1, _⟩ => show d.val = 0 + d.val * (0 + 1); omega
  · rw [dif_neg hj]
    refine (pad_apply_of_not_inside _ _ _ x v h hu (ix2 j d) (0 : Fin 2) ?_).trans (congrArg v (eq_ix0 _))
    intro h3
    have h4 : (j.val - 0) / (0 + 1) < 10000 := h3.2.2
    omega

/-- A 128 × 128 matrix transposed reads, at `(d, o)`, the matrix at `(o, d)`. -/
theorem transpose_at (w : FVec Ideal S128x128 .f32) (h : S128x128.Transposes [1, 0] S128x128) (d o : Fin 128) :
    transpose S128x128 [1, 0] w h (ix2 d o) = w (ix2 o d) := by
  refine transpose_apply [1, 0] w h (ix2 d o) (ix2 o d) ?_
  intro b
  match b with
  | ⟨0, _⟩ => rfl
  | ⟨1, _⟩ => rfl

/-- A vector of 128 entries recast as one row reads, at `(0, o)`, its entry `o`: the same row-major position. -/
theorem oneRow_at (b : FVec Ideal S128 .f32) (h : S128.ShapeCasts S1x128) (o : Fin 128) :
    shapeCast S1x128 b h (ix2 (0 : Fin 1) o) = b (ix1 o) := by
  refine shapeCast_apply b h (ix2 (0 : Fin 1) o) (ix1 o) ?_
  rw [Shape.rowMajor_val_one, Shape.rowMajor_val_two]
  simp

set_option maxHeartbeats 4000000 in
/-- The adjacency matrix the region finds: entry `(n, j)` is the zero plus the weights of the edges whose
    destination is `n` and whose source is `j`, when no index is negative (so that no index is wrapped). -/
theorem V_adjacency (c : Dev nD)
    (hdst : ∀ e : Fin 640000, 0 ≤ (dstArr m c (ix1 e)).toInt)
    (hsrc : ∀ e : Fin 640000, 0 ≤ (srcArr m c (ix1 e)).toInt)
    (n j : Fin 10240) :
    adjMat m c (ix2 n j)
      = 0 + ∑ e ∈ Finset.univ.filter (fun e : Fin 640000 =>
          (dstArr m c (ix1 e)).toInt = (n.val : ℤ) ∧ (srcArr m c (ix1 e)).toInt = (j.val : ℤ)),
          adjArr m c (ix1 e) := by
  -- the array as its operations' term
  have e : (V m c main_v15 : FVec Ideal S10240x10240 .bf16)
      = truncf .bf16 (Host.scatterAdd scatter_S10240x10240_S640000x2_S640000_n_01_01_1
          (broadcastInDim S10240x10240 ![] Facts₀.bcast_S_S10240x10240 (constant (F := Ideal) S_ .f32 0x00000000#32))
          (concatenate S640000x2 1
            [⟨S640000x1, broadcastInDim S640000x1 ![0] Facts₀.bcast_S640000_S640000x1_0
                (select (cmpi .slt (dstArr m c) (broadcastInDim S640000 ![] Facts₀.bcast_S_S640000 (constantI S_ 32 0#32)))
                  (addi (dstArr m c) (broadcastInDim S640000 ![] Facts₀.bcast_S_S640000 (constantI S_ 32 10240#32))) (dstArr m c))⟩,
             ⟨S640000x1, broadcastInDim S640000x1 ![0] Facts₀.bcast_S640000_S640000x1_0
                (select (cmpi .slt (srcArr m c) (broadcastInDim S640000 ![] Facts₀.bcast_S_S640000 (constantI S_ 32 0#32)))
                  (addi (srcArr m c) (broadcastInDim S640000 ![] Facts₀.bcast_S_S640000 (constantI S_ 32 10240#32))) (srcArr m c))⟩]
            Facts₀.concatenates_S640000x1_S640000x1_S640000x2_d1) (adjArr m c)) Facts₀.bitsLt_bf16_f32 := by
    dsimp only [Gen.V, Gen.V0]
    simp only [Gen.hostOps0, Gen.hostOps0_1, Gen.hostOps0_2, List.flatten_cons, List.flatten_nil, List.append_nil, List.cons_append, List.nil_append]
    after_results <;> rfl
  exact (congrFun e (ix2 n j)).trans
    (adjacency_at _ rfl rfl rfl rfl _ _ _ _ _ (dstArr m c) (srcArr m c) (adjArr m c) hdst hsrc n j)

/-- The padded table the region finds: the rows of `x`, then 240 rows of zeros. -/
theorem V_table (c : Dev nD) (j : Fin 10240) (d : Fin 128) :
    table m c (ix2 j d) = if h : j.val < 10000 then xArr m c (ix2 (⟨j.val, h⟩ : Fin 10000) d) else 0 := by
  -- the array as its operations' term
  have e : (V m c main_v17 : FVec Ideal S10240x128 .bf16)
      = truncf .bf16 (pad S10240x128 ![0, 0] ![240, 0] ![0, 0] (xArr m c) (sitofp (F := Ideal) .f32 (constantI S_ 32 0#32))
          Facts₀.pads_S10000x128_S10240x128_02400_000 Facts₀.h_S_) Facts₀.bitsLt_bf16_f32 := by
    dsimp only [Gen.V, Gen.V0]
    simp only [Gen.hostOps0, Gen.hostOps0_1, Gen.hostOps0_2, List.flatten_cons, List.flatten_nil, List.append_nil, List.cons_append, List.nil_append]
    after_results <;> rfl
  -- the padding value is the integer zero converted: the float zero
  have hv : (sitofp (F := Ideal) .f32 (constantI S_ 32 0#32) : FVec Ideal S_ .f32) ix0 = 0 := sitofp_zero
  refine (congrFun e (ix2 j d)).trans ?_
  rw [truncf_apply, padRows_at, hv]

/-- The weights the region finds: `W` transposed. -/
theorem V_weights (c : Dev nD) (d o : Fin 128) : weightsT m c (ix2 d o) = wArr m c (ix2 o d) := by
  have e : (V m c main_v18 : FVec Ideal S128x128 .f32)
      = transpose S128x128 [1, 0] (wArr m c) Facts₀.transposes_S128x128_S128x128_1_0 := by
    dsimp only [Gen.V, Gen.V0]
    simp only [Gen.hostOps0, Gen.hostOps0_1, Gen.hostOps0_2, List.flatten_cons, List.flatten_nil, List.append_nil, List.cons_append, List.nil_append]
    after_results <;> rfl
  exact (congrFun e (ix2 d o)).trans (transpose_at (wArr m c) _ d o)

/-- The bias the region finds: `b` as one row. -/
theorem V_bias (c : Dev nD) (o : Fin 128) : biasRow m c (ix2 (0 : Fin 1) o) = bArr m c (ix1 o) := by
  have e : (V m c main_v19 : FVec Ideal S1x128 .f32)
      = shapeCast S1x128 (bArr m c) Facts₀.shapeCasts_S128_S1x128 := by
    dsimp only [Gen.V, Gen.V0]
    simp only [Gen.hostOps0, Gen.hostOps0_1, Gen.hostOps0_2, List.flatten_cons, List.flatten_nil, List.append_nil, List.cons_append, List.nil_append]
    after_results <;> rfl
  exact (congrFun e (ix2 (0 : Fin 1) o)).trans (oneRow_at (bArr m c) _ o)

end Cert.KernelIdeal.HostArrays

end
-- ==== Proof.Algebra.lean ====
import proofs.«418839_j86114094285068_2_alg».proof.Proof.Spec
import Mathlib.Data.EReal.Operations
import Mathlib.Algebra.BigOperators.Fin
import Mathlib.Algebra.BigOperators.Group.Finset.Basic
import Mathlib.Algebra.BigOperators.Ring.Finset
import Mathlib.Logic.Equiv.Fin.Basic

noncomputable section

namespace Cert.GraphConv

open Idealize.ShloMosaic Idealize.ShloMosaic.ValueIdx
open scoped BigOperators

/-! ## Real sums inside the extended reals -/

/-- The coercion of a finite sum of reals is the sum of the coercions. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A finite sum of reals times a real distributes inside the extended reals: every term is finite, so the
    product is the real one. -/
theorem sum_coe_mul_coe {ι : Type*} (s : Finset ι) (f : ι → ℝ) (c : ℝ) :
    (∑ i ∈ s, (f i : EReal)) * (c : EReal) = ∑ i ∈ s, (f i : EReal) * (c : EReal) := by
  rw [← coe_sum, ← EReal.coe_mul, Finset.sum_mul, coe_sum]
  exact Finset.sum_congr rfl fun i _ => EReal.coe_mul _ _

/-! ## The eight bands are the 10240 columns -/

/-- Band number and column within the band, against the column among the 10240: quotient and remainder by 1280. -/
def bandEquiv : Fin 8 × Fin 1280 ≃ Fin 10240 where
  toFun p := band p.1.val p.2
  invFun j := (⟨j.val / 1280, by have := j.isLt; omega⟩, ⟨j.val % 1280, by omega⟩)
  left_inv := fun ⟨k, kk⟩ => by
    have hk := k.isLt
    have hkk := kk.isLt
    refine Prod.ext (Fin.ext ?_) (Fin.ext ?_)
    · show (k.val % 8 * 1280 + kk.val) / 1280 = k.val
      omega
    · show (k.val % 8 * 1280 + kk.val) % 1280 = kk.val
      omega
  right_inv := fun j => by
    have hj := j.isLt
    refine Fin.ext ?_
    show (j.val / 1280) % 8 * 1280 + j.val % 1280 = j.val
    omega

/-- A sum over the 10240 columns is the sum over the eight bands of the sums over each band's 1280 columns. -/
theorem sum_bands {M : Type*} [AddCommMonoid M] (f : Fin 10240 → M) :
    ∑ j, f j = ∑ k : Fin 8, ∑ kk : Fin 1280, f (band k.val kk) := by
  rw [← Equiv.sum_comp bandEquiv f, Fintype.sum_prod_type]
  rfl

/-- The full accumulator is the whole row-by-column product: the starting zero drops out and the eight band shares
    add up to the sum over all columns. -/
theorem accum_seven (A : FVec Ideal ⟨2, ![10240, 10240]⟩ .bf16) (X : FVec Ideal ⟨2, ![10240, 128]⟩ .bf16)
    (n : Fin 10240) (d : Fin 128) :
    accum A X n d 7 = ∑ j : Fin 10240, A (ix2 n j) * X (ix2 j d) := by
  rw [sum_bands (fun j => A (ix2 n j) * X (ix2 j d)), Fin.sum_univ_eight]
  simp only [accum, bandDot, zero_add]
  rfl

/-! ## From the adjacency matrix back to the edge list -/

/-- The column of the adjacency matrix that edge `e` feeds: its clamped source row, among the padded 10240. -/
def srcCol (src : IVec ⟨1, ![640000]⟩ 32) (e : Fin 640000) : Fin 10240 := padRow (srcRow src e)

/-- For an edge whose source index is a row of the table, "the source index is `j`" says the edge feeds column `j`:
    the clamp does nothing below 10000. -/
theorem src_eq_iff_srcCol (src : IVec ⟨1, ![640000]⟩ 32) (e : Fin 640000)
    (h : 0 ≤ (src (ix1 e)).toInt ∧ (src (ix1 e)).toInt < 10000) (j : Fin 10240) :
    (src (ix1 e)).toInt = (j.val : ℤ) ↔ srcCol src e = j := by
  have hj := j.isLt
  rw [Fin.ext_iff]
  show _ ↔ min (src (ix1 e)).toInt.toNat 9999 = j.val
  omega

/-- The padded table at an edge's column is the table at its source row: that column is below 10000. -/
theorem X_srcCol (x : FVec Ideal ⟨2, ![10000, 128]⟩ .f32) (src : IVec ⟨1, ![640000]⟩ 32)
    (X : FVec Ideal ⟨2, ![10240, 128]⟩ .bf16)
    (hX : ∀ (j : Fin 10240) (d : Fin 128), X (ix2 j d) = if h : j.val < 10000 then x (ix2 (⟨j.val, h⟩ : Fin 10000) d) else 0)
    (e : Fin 640000) (d : Fin 128) : X (ix2 (srcCol src e) d) = x (ix2 (srcRow src e) d) := by
  have h : (srcCol src e).val < 10000 := (srcRow src e).isLt
  rw [hX, dif_pos h]
  rfl

/-- Row `n` of the adjacency matrix against column `d` of the padded table is node `n`'s aggregate: distribute each
    column's entry over the edges that make up the adjacency entry (all finite), then collect the edges into `n` by
    the column they feed; each edge feeds exactly one column, where the padded table is the table's source row. -/
theorem dot_eq_agg (x : FVec Ideal ⟨2, ![10000, 128]⟩ .f32) (src dst : IVec ⟨1, ![640000]⟩ 32)
    (adj : FVec Ideal ⟨1, ![640000]⟩ .f32)
    (A : FVec Ideal ⟨2, ![10240, 10240]⟩ .bf16) (X : FVec Ideal ⟨2, ![10240, 128]⟩ .bf16)
    (hA : ∀ n j : Fin 10240, A (ix2 n j) = 0 + ∑ e ∈ Finset.univ.filter (fun e : Fin 640000 =>
        (dst (ix1 e)).toInt = (n.val : ℤ) ∧ (src (ix1 e)).toInt = (j.val : ℤ)), adj (ix1 e))
    (hX : ∀ (j : Fin 10240) (d : Fin 128), X (ix2 j d) = if h : j.val < 10000 then x (ix2 (⟨j.val, h⟩ : Fin 10000) d) else 0)
    (hx : ∀ i, ∃ r : ℝ, x i = (r : EReal)) (hadj : ∀ i, ∃ r : ℝ, adj i = (r : EReal))
    (hsrc : ∀ e : Fin 640000, 0 ≤ (src (ix1 e)).toInt ∧ (src (ix1 e)).toInt < 10000)
    (n : Fin 10000) (d : Fin 128) :
    ∑ j : Fin 10240, A (ix2 (padRow n) j) * X (ix2 j d) = agg x src dst adj n d := by
  classical
  choose xr hxr using hx
  choose ar har using hadj
  -- the edges into `n` that feed column `j` are the edges of the adjacency entry `(n, j)`
  have hfilter : ∀ j : Fin 10240,
      Finset.univ.filter (fun e : Fin 640000 =>
        (dst (ix1 e)).toInt = ((padRow n).val : ℤ) ∧ (src (ix1 e)).toInt = (j.val : ℤ))
      = (Finset.univ.filter (fun e : Fin 640000 => (dst (ix1 e)).toInt = (n.val : ℤ))).filter
          (fun e => srcCol src e = j) := by
    intro j
    rw [Finset.filter_filter]
    refine Finset.filter_congr fun e _ => ?_
    rw [src_eq_iff_srcCol src e (hsrc e) j]
    rfl
  -- every entry of the padded table is a real number
  have hXr : ∀ j : Fin 10240, ∃ c : ℝ, X (ix2 j d) = (c : EReal) := by
    intro j
    rw [hX]
    by_cases h : j.val < 10000
    · rw [dif_pos h]; exact ⟨_, hxr _⟩
    · rw [dif_neg h]; exact ⟨0, EReal.coe_zero.symm⟩
  calc ∑ j : Fin 10240, A (ix2 (padRow n) j) * X (ix2 j d)
      = ∑ j : Fin 10240, (∑ e ∈ (Finset.univ.filter (fun e : Fin 640000 =>
            (dst (ix1 e)).toInt = (n.val : ℤ))).filter (fun e => srcCol src e = j), adj (ix1 e)) * X (ix2 j d) := by
        refine Finset.sum_congr rfl fun j _ => ?_
        rw [hA, zero_add, hfilter j]
    _ = ∑ j : Fin 10240, ∑ e ∈ (Finset.univ.filter (fun e : Fin 640000 =>
            (dst (ix1 e)).toInt = (n.val : ℤ))).filter (fun e => srcCol src e = j), adj (ix1 e) * X (ix2 j d) := by
        refine Finset.sum_congr rfl fun j _ => ?_
        obtain ⟨c, hc⟩ := hXr j
        rw [hc]
        simp only [har]
        exact sum_coe_mul_coe _ _ c
    _ = ∑ j : Fin 10240, ∑ e ∈ (Finset.univ.filter (fun e : Fin 640000 =>
            (dst (ix1 e)).toInt = (n.val : ℤ))).filter (fun e => srcCol src e = j),
            x (ix2 (srcRow src e) d) * adj (ix1 e) := by
        refine Finset.sum_congr rfl fun j _ => Finset.sum_congr rfl fun e he => ?_
        rw [← (Finset.mem_filter.mp he).2, X_srcCol x src X hX, mul_comm]
    _ = ∑ e ∈ Finset.univ.filter (fun e : Fin 640000 => (dst (ix1 e)).toInt = (n.val : ℤ)),
            x (ix2 (srcRow src e) d) * adj (ix1 e) :=
        Finset.sum_fiberwise _ (srcCol src) _
    _ = agg x src dst adj n d := rfl

/-- The dense form over the adjacency matrix of the edge list and the zero-padded table is the message-passing
    form, at every node of the first 10000, when the table and the edge weights are real numbers and every source
    index is a row of the table. -/
theorem dense_eq_out (x : FVec Ideal ⟨2, ![10000, 128]⟩ .f32) (src dst : IVec ⟨1, ![640000]⟩ 32)
    (adj : FVec Ideal ⟨1, ![640000]⟩ .f32) (W : FVec Ideal ⟨2, ![128, 128]⟩ .f32) (b : FVec Ideal ⟨1, ![128]⟩ .f32)
    (A : FVec Ideal ⟨2, ![10240, 10240]⟩ .bf16) (X : FVec Ideal ⟨2, ![10240, 128]⟩ .bf16)
    (Wt : FVec Ideal ⟨2, ![128, 128]⟩ .f32) (B : FVec Ideal ⟨2, ![1, 128]⟩ .f32)
    (hA : ∀ n j : Fin 10240, A (ix2 n j) = 0 + ∑ e ∈ Finset.univ.filter (fun e : Fin 640000 =>
        (dst (ix1 e)).toInt = (n.val : ℤ) ∧ (src (ix1 e)).toInt = (j.val : ℤ)), adj (ix1 e))
    (hX : ∀ (j : Fin 10240) (d : Fin 128), X (ix2 j d) = if h : j.val < 10000 then x (ix2 (⟨j.val, h⟩ : Fin 10000) d) else 0)
    (hWt : ∀ d o : Fin 128, Wt (ix2 d o) = W (ix2 o d))
    (hB : ∀ o : Fin 128, B (ix2 (0 : Fin 1) o) = b (ix1 o))
    (hx : ∀ i, ∃ r : ℝ, x i = (r : EReal)) (hadj : ∀ i, ∃ r : ℝ, adj i = (r : EReal))
    (hsrc : ∀ e : Fin 640000, 0 ≤ (src (ix1 e)).toInt ∧ (src (ix1 e)).toInt < 10000)
    (n : Fin 10000) (o : Fin 128) :
    dense A X Wt B (padRow n) o = out x src dst adj W b n o := by
  have hacc : ∀ d : Fin 128, accum A X (padRow n) d 7 = agg x src dst adj n d := fun d =>
    (accum_seven A X (padRow n) d).trans (dot_eq_agg x src dst adj A X hA hX hx hadj hsrc n d)
  simp only [dense, out, hacc, hWt, hB]

end Cert.GraphConv

end
-- ==== Proof.LibRowGather.lean ====
/-
  THE ROW GATHER READ AT AN INDEX. What `table[idx]` of a rank-2 table `table : [N, C]` at a vector of row indices
  lowers to: a `stablehlo.gather` with offset_dims `[1]`, collapsed_slice_dims `[0]`, start_index_map `[0]`,
  index_vector_dim `1` and slice_sizes `[1, C]`, over the indices kept as an `[n, 1]` column. Its result is `[n, C]`,
  and the element at `(p, q)` is the table's at `(row, q)`, where `row` is the start index `idx[p, 0]` read as a SIGNED
  integer and CLAMPED into `[0, N − 1]` (StableHLO clamps every start index so that the slice fits; here the slice is
  one row, so the clamp is to the last row): a negative index reads row `0`, one past the end reads row `N − 1`.

  `rowDims` is the record of those dimension numbers, written as a literal structure so that every list lookup in the
  gather's operand index computes; `rowGather_apply` is the read. The lemma is general in `N`, `C`, `n`, the index
  width `w` and the element type; the conditions `wf` on the dimension numbers are decided on a program's literal
  shapes. This is the rank-2 companion of `ValueIdx.gather_take_apply` (a rank-1 table).
-/
import Idealize.ShloMosaic.PureOps.Ideal
import Idealize.ShloMosaic.Lib.ValueIdx
noncomputable section
namespace Idealize.ShloMosaic.RowGather
open Idealize.ShloMosaic Idealize.ShloMosaic.ValueIdx

/-- The dimension numbers of a row gather out of an [N, C] table at an [n, 1] column of row indices. -/
abbrev rowDims (N C n : Nat)
    (wf : GatherDims.WF ⟨2, ![N, C]⟩ ⟨2, ![n, 1]⟩ ⟨2, ![n, C]⟩ [1] [0] [] [0] [] 1 ![1, C]) :
    GatherDims ⟨2, ![N, C]⟩ ⟨2, ![n, 1]⟩ ⟨2, ![n, C]⟩ where
  offsetDims := [1]
  collapsedSliceDims := [0]
  operandBatchingDims := []
  startIndicesBatchingDims := []
  startIndexMap := [0]
  indexVectorDim := 1
  sliceSizes := ![1, C]
  wf := wf

/-- The row gather read at (p, q): the table at the clamped signed start index of row p, column q. -/
theorem rowGather_apply {α : Type} {N C n w : Nat} (hN : 0 < N)
    (wf : GatherDims.WF ⟨2, ![N, C]⟩ ⟨2, ![n, 1]⟩ ⟨2, ![n, C]⟩ [1] [0] [] [0] [] 1 ![1, C])
    (x : (⟨2, ![N, C]⟩ : Shape).Idx → α) (idx : IVec ⟨2, ![n, 1]⟩ w) (p : Fin n) (q : Fin C) :
    Host.gather (rowDims N C n wf) x idx (ix2 p q)
      = x (ix2 (⟨min (idx (ix2 p (0 : Fin 1))).toInt.toNat (N - 1), by omega⟩ : Fin N) q) := by
  -- the gather reads the operand at its operand index: compare the two indices axis by axis, as naturals
  unfold Host.gather
  congr 1
  funext a
  refine Fin.ext ?_
  match a with
  | ⟨0, _⟩ =>
    -- AXIS 0, collapsed and start-indexed: no batching coordinate (no batching axes), no offset coordinate (a collapsed
    -- axis is not a kept one), so the operand coordinate is the clamped start alone
    show (rowDims N C n wf).start (ix2 p q) idx 0 + (rowDims N C n wf).batchCoord (ix2 p q) 0
        + (rowDims N C n wf).offCoord (ix2 p q) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N C n wf).startIndexMap from List.mem_singleton.mpr rfl)]
    -- the start index's one component is read at (p, 0): the result's batch coordinate p on the start indices' axis 0,
    -- the component's number 0 on the index vector's axis 1
    have hsi : (rowDims N C n wf).siIdx (ix2 p q) ⟨List.idxOf (0 : Fin 2) (rowDims N C n wf).startIndexMap,
        List.idxOf_lt_length_iff.2 (List.mem_singleton.mpr rfl)⟩ = ix2 p (0 : Fin 1) := by
      funext b; refine Fin.ext ?_
      match b with
      | ⟨0, _⟩ => rfl
      | ⟨1, _⟩ => rfl
    rw [hsi]
    -- the clamp's upper end: the axis's extent N less the slice size 1
    rfl
  | ⟨1, _⟩ =>
    -- AXIS 1, an offset axis: the start index map does not name it, so the start is 0; there is no batching
    -- coordinate; it is the operand's one kept axis, read by the result's one offset axis, whose coordinate is q
    show (rowDims N C n wf).start (ix2 p q) idx 1 + (rowDims N C n wf).batchCoord (ix2 p q) 1
        + (rowDims N C n wf).offCoord (ix2 p q) 1 = q.val
    have hk : (1 : Fin 2) ∈ (rowDims N C n wf).sKept :=
      (GatherDims.mem_sKept _ _).mpr ⟨by show (1 : Fin 2) ∉ [(0 : Fin 2)]; decide, List.not_mem_nil⟩
    rw [GatherDims.batchCoord_eq_zero _ _ _ List.not_mem_nil]
    unfold GatherDims.start GatherDims.offCoord
    rw [dif_neg (show (1 : Fin 2) ∉ (rowDims N C n wf).startIndexMap by
      show (1 : Fin 2) ∉ [(0 : Fin 2)]; decide), dif_pos hk]
    simp only [Nat.zero_add]
    rfl
end Idealize.ShloMosaic.RowGather
end
-- ==== Proof.LibScatterSum.lean ====
/-
  THE ACCUMULATING ROW SCATTER READ AT AN INDEX, AND THE EXTENDED-REAL ALGEBRA AROUND IT.

  What `x.at[idx].add(upd)` (a segment sum) of a rank-2 operand `x : [N, C]` at a vector of row indices lowers to: a
  `stablehlo.scatter` with an `add` body, update_window_dims `[1]`, inserted_window_dims `[0]`,
  scatter_dims_to_operand_dims `[0]`, index_vector_dim `1`, over the indices kept as an `[n, 1]` column and updates
  `[n, C]`. Update row `e` lands on operand row `idx[e, 0]`, the start index read as a SIGNED integer and NOT clamped:
  a row index that is negative or at least `N` names no row, and that update row contributes nothing. At the exact
  (extended-real) instance the result at `(j, q)` is therefore `x[j, q]` plus the sum of `upd[e, q]` over the update
  rows `e` whose index is `j`.

  • `rowScatterDims N C n wf` is the record of those dimension numbers, a literal structure so that every list lookup in
    the result index computes; `rowScatter_start0` / `_start1` / `_window0` / `_window1` read the start and the window
    coordinate of update index `(e, q')` on the operand's two axes (`idx[e, 0]` signed and `0`; `0` and `q'`);
    `rowScatter_resultIdx?_eq_some_iff` says update index `(e, q')` lands on `(j, q)` exactly when `idx[e, 0] = j` as
    integers and `q' = q`; `rowScatterAdd_apply` is the read, and `rowHostScatterAdd_apply` the same read of the host's
    `Host.scatterAdd` at the exact instance (which is that sum by definition).
  • `vecScatterDims N n wf`, `vecScatter_resultIdx?_eq_some_iff`, `vecScatterAdd_apply`, `vecHostScatterAdd_apply`: the same for a rank-1 operand
    `[N]` with updates `[n]` (update_window_dims `[]`): the result at `j` is `x[j]` plus the sum of `upd[e]` over the
    `e` with `idx[e, 0] = j`.
  • `sum_mul_coe_of_nonneg`: multiplication by a nonnegative REAL distributes over every finite sum of extended reals,
    infinities of both signs included (for `r = 0` both sides are `0`; for `r > 0` multiplication by `r` keeps `⊤` and
    `⊥` and so commutes with the convention `⊤ + ⊥ = ⊥`); `add_mul_coe_of_nonneg` is the two-term form, and
    `coe_mul_sum_of_nonneg` / `coe_mul_add_of_nonneg'` the same with the real on the left.
  • `zero_add_sum_one`: `0` plus a sum of ones over a finite set is the set's cardinality, a natural number, so neither
    infinity; `rsqrt_natCast_pos`: the reciprocal square root of a positive natural number is a nonnegative real;
    `rsqrt_natCast_or_zero`: so is "the reciprocal square root where the number is positive, else `0`".

  The lemmas are general in `N`, `C`, `n` and the index width `w`; the conditions `wf` on the dimension numbers are
  decided on a program's literal shapes.
-/
import Idealize.ShloMosaic.PureOps.Ideal
import Idealize.ShloMosaic.Lib.ValueIdx
import Mathlib.Data.EReal.Operations
noncomputable section
namespace Idealize.ShloMosaic.ScatterSum
open Idealize.ShloMosaic Idealize.ShloMosaic.ValueIdx
open scoped BigOperators

/-! ## The rank-2 row scatter -/

/-- The dimension numbers of an accumulating row scatter into an [N, C] operand at an [n, 1] column of row indices,
    with updates [n, C]. -/
abbrev rowScatterDims (N C n : Nat)
    (wf : ScatterDims.WF ⟨2, ![N, C]⟩ ⟨2, ![n, 1]⟩ ⟨2, ![n, C]⟩ [1] [0] [0] 1) :
    ScatterDims ⟨2, ![N, C]⟩ ⟨2, ![n, 1]⟩ ⟨2, ![n, C]⟩ where
  updateWindowDims := [1]
  insertedWindowDims := [0]
  scatterDimsToOperandDims := [0]
  indexVectorDim := 1
  wf := wf

section Row
variable {N C n w : Nat} (wf : ScatterDims.WF ⟨2, ![N, C]⟩ ⟨2, ![n, 1]⟩ ⟨2, ![n, C]⟩ [1] [0] [0] 1)

/-- On the operand's row axis the window of update index (e, q') starts at the signed row index idx[e, 0]. -/
theorem rowScatter_start0 (idx : IVec ⟨2, ![n, 1]⟩ w) (e : Fin n) (q' : Fin C) :
    (rowScatterDims N C n wf).start (ix2 e q') idx 0 = (idx (ix2 e (0 : Fin 1))).toInt := by
  unfold ScatterDims.start
  rw [dif_pos (show (0 : Fin 2) ∈ (rowScatterDims N C n wf).scatterDimsToOperandDims from List.mem_singleton.mpr rfl)]
  -- the start index's one component is read at (e, 0): the update's scatter coordinate e on the scatter indices'
  -- axis 0, the component's number 0 on the index vector's axis 1
  have hsi : (rowScatterDims N C n wf).siIdx (ix2 e q')
      ⟨List.idxOf (0 : Fin 2) (rowScatterDims N C n wf).scatterDimsToOperandDims,
        List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On the operand's column axis, which the scatter indices do not address, the window starts at 0. -/
theorem rowScatter_start1 (idx : IVec ⟨2, ![n, 1]⟩ w) (e : Fin n) (q' : Fin C) :
    (rowScatterDims N C n wf).start (ix2 e q') idx 1 = 0 := by
  rfl

/-- The row axis is an inserted window axis: the window coordinate on it is 0. -/
theorem rowScatter_window0 (e : Fin n) (q' : Fin C) :
    (rowScatterDims N C n wf).window (ix2 e q') 0 = 0 := by
  rfl

/-- The column axis is the one window axis: the window coordinate on it is the update's column q'. -/
theorem rowScatter_window1 (e : Fin n) (q' : Fin C) :
    (rowScatterDims N C n wf).window (ix2 e q') 1 = q'.val := by
  rfl

/-- Update index (e, q') lands on operand index (j, q) exactly when the signed row index idx[e, 0] is j and the
    columns agree. -/
theorem rowScatter_resultIdx?_eq_some_iff (idx : IVec ⟨2, ![n, 1]⟩ w) (e : Fin n) (q' : Fin C) (j : Fin N) (q : Fin C) :
    (rowScatterDims N C n wf).resultIdx? (ix2 e q') idx = some (ix2 j q)
      ↔ (idx (ix2 e (0 : Fin 1))).toInt = (j.val : ℤ) ∧ q' = q := by
  unfold ScatterDims.resultIdx?
  split
  · rename_i h
    -- the update is inside the operand: compare the landing index with (j, q) coordinate by coordinate
    rw [Option.some.injEq]
    have h0 := (h 0).1
    rw [rowScatter_start0, rowScatter_window0] at h0
    constructor
    · intro hf
      have e0 := congrArg (fun f => (f 0).val) hf
      have e1 := congrArg (fun f => (f 1).val) hf
      simp only [rowScatter_start0, rowScatter_start1, rowScatter_window0, rowScatter_window1] at e0 e1
      have e0' : ((idx (ix2 e (0 : Fin 1))).toInt + ((0 : ℕ) : ℤ)).toNat = j.val := e0
      have e1' : ((0 : ℤ) + (q'.val : ℤ)).toNat = q.val := e1
      exact ⟨by omega, Fin.ext (by omega)⟩
    · rintro ⟨hj, rfl⟩
      funext a; refine Fin.ext ?_
      match a with
      | ⟨0, _⟩ =>
        show ((rowScatterDims N C n wf).start (ix2 e q') idx 0 + ((rowScatterDims N C n wf).window (ix2 e q') 0 : ℕ)).toNat = j.val
        rw [rowScatter_start0, rowScatter_window0]; omega
      | ⟨1, _⟩ =>
        show ((rowScatterDims N C n wf).start (ix2 e q') idx 1 + ((rowScatterDims N C n wf).window (ix2 e q') 1 : ℕ)).toNat = q'.val
        rw [rowScatter_start1, rowScatter_window1]; omega
  · rename_i h
    -- the update is dropped: then its row index is not j, for j is a row of the operand and q' a column
    constructor
    · intro hf; exact absurd hf (by simp)
    · rintro ⟨hj, rfl⟩
      refine absurd (fun a => ?_) h
      match a with
      | ⟨0, _⟩ =>
        show 0 ≤ (rowScatterDims N C n wf).start (ix2 e q') idx 0 + ((rowScatterDims N C n wf).window (ix2 e q') 0 : ℕ)
          ∧ (rowScatterDims N C n wf).start (ix2 e q') idx 0 + ((rowScatterDims N C n wf).window (ix2 e q') 0 : ℕ) < (N : ℤ)
        rw [rowScatter_start0, rowScatter_window0]
        have := j.isLt; omega
      | ⟨1, _⟩ =>
        show 0 ≤ (rowScatterDims N C n wf).start (ix2 e q') idx 1 + ((rowScatterDims N C n wf).window (ix2 e q') 1 : ℕ)
          ∧ (rowScatterDims N C n wf).start (ix2 e q') idx 1 + ((rowScatterDims N C n wf).window (ix2 e q') 1 : ℕ) < (C : ℤ)
        rw [rowScatter_start1, rowScatter_window1]
        have := q'.isLt; omega

/-- The accumulating row scatter read at (j, q): the operand there plus the sum of the updates' column q over the
    update rows whose signed row index is j. -/
theorem rowScatterAdd_apply (x : (⟨2, ![N, C]⟩ : Shape).Idx → EReal) (idx : IVec ⟨2, ![n, 1]⟩ w)
    (upd : (⟨2, ![n, C]⟩ : Shape).Idx → EReal) (j : Fin N) (q : Fin C) :
    Ideal.hostScatterAdd (rowScatterDims N C n wf) x idx upd (ix2 j q)
      = x (ix2 j q) + ∑ e ∈ Finset.univ.filter (fun e : Fin n => (idx (ix2 e (0 : Fin 1))).toInt = (j.val : ℤ)),
          upd (ix2 e q) := by
  unfold Ideal.hostScatterAdd
  congr 1
  -- the update indices landing on (j, q) are the (e, q) with idx[e, 0] = j: re-index the sum by the update row e
  have key : ∀ u : (⟨2, ![n, C]⟩ : Shape).Idx,
      u ∈ Finset.univ.filter (fun u => (rowScatterDims N C n wf).resultIdx? u idx = some (ix2 j q)) →
      ∃ a : Fin n, u = ix2 a q ∧ (idx (ix2 a (0 : Fin 1))).toInt = (j.val : ℤ) := by
    intro u hu
    obtain ⟨a, b, rfl⟩ : ∃ (a : Fin n) (b : Fin C), u = ix2 a b := ⟨u 0, u 1, eq_ix2 u⟩
    have hu' := (rowScatter_resultIdx?_eq_some_iff wf idx a b j q).mp (Finset.mem_filter.mp hu).2
    exact ⟨a, by rw [hu'.2], hu'.1⟩
  refine Finset.sum_nbij' (fun u => (u 0 : Fin n)) (fun e => ix2 e q) ?_ ?_ ?_ ?_ ?_
  · intro u hu
    obtain ⟨a, rfl, ha⟩ := key u hu
    exact Finset.mem_filter.mpr ⟨Finset.mem_univ _, ha⟩
  · intro e he
    exact Finset.mem_filter.mpr ⟨Finset.mem_univ _,
      (rowScatter_resultIdx?_eq_some_iff wf idx e q j q).mpr ⟨(Finset.mem_filter.mp he).2, rfl⟩⟩
  · intro u hu
    obtain ⟨a, rfl, _⟩ := key u hu
    rfl
  · intro e _; rfl
  · intro u hu
    obtain ⟨a, rfl, _⟩ := key u hu
    rfl

/-- The host's accumulating row scatter at the exact instance, at any float format, read at (j, q): by definition it
    is the exact sum above. -/
theorem rowHostScatterAdd_apply {φ : FTy} (x : FVec Ideal ⟨2, ![N, C]⟩ φ) (idx : IVec ⟨2, ![n, 1]⟩ w)
    (upd : FVec Ideal ⟨2, ![n, C]⟩ φ) (j : Fin N) (q : Fin C) :
    Host.scatterAdd (rowScatterDims N C n wf) x idx upd (ix2 j q)
      = x (ix2 j q) + ∑ e ∈ Finset.univ.filter (fun e : Fin n => (idx (ix2 e (0 : Fin 1))).toInt = (j.val : ℤ)),
          upd (ix2 e q) :=
  rowScatterAdd_apply wf x idx upd j q
end Row

/-! ## The rank-1 scatter -/

/-- The dimension numbers of an accumulating scatter into an [N] operand at an [n, 1] column of indices, with
    updates [n]. -/
abbrev vecScatterDims (N n : Nat)
    (wf : ScatterDims.WF ⟨1, ![N]⟩ ⟨2, ![n, 1]⟩ ⟨1, ![n]⟩ [] [0] [0] 1) :
    ScatterDims ⟨1, ![N]⟩ ⟨2, ![n, 1]⟩ ⟨1, ![n]⟩ where
  updateWindowDims := []
  insertedWindowDims := [0]
  scatterDimsToOperandDims := [0]
  indexVectorDim := 1
  wf := wf

section Vec
variable {N n w : Nat} (wf : ScatterDims.WF ⟨1, ![N]⟩ ⟨2, ![n, 1]⟩ ⟨1, ![n]⟩ [] [0] [0] 1)

/-- The window of update index e starts at the signed index idx[e, 0]. -/
theorem vecScatter_start0 (idx : IVec ⟨2, ![n, 1]⟩ w) (e : Fin n) :
    (vecScatterDims N n wf).start (ix1 e) idx 0 = (idx (ix2 e (0 : Fin 1))).toInt := by
  unfold ScatterDims.start
  rw [dif_pos (show (0 : Fin 1) ∈ (vecScatterDims N n wf).scatterDimsToOperandDims from List.mem_singleton.mpr rfl)]
  -- the start index's one component is read at (e, 0)
  have hsi : (vecScatterDims N n wf).siIdx (ix1 e)
      ⟨List.idxOf (0 : Fin 1) (vecScatterDims N n wf).scatterDimsToOperandDims,
        List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- The operand's one axis is an inserted window axis: the window coordinate on it is 0. -/
theorem vecScatter_window0 (e : Fin n) : (vecScatterDims N n wf).window (ix1 e) 0 = 0 := by
  rfl

/-- Update index e lands on operand index j exactly when the signed index idx[e, 0] is j. -/
theorem vecScatter_resultIdx?_eq_some_iff (idx : IVec ⟨2, ![n, 1]⟩ w) (e : Fin n) (j : Fin N) :
    (vecScatterDims N n wf).resultIdx? (ix1 e) idx = some (ix1 j)
      ↔ (idx (ix2 e (0 : Fin 1))).toInt = (j.val : ℤ) := by
  unfold ScatterDims.resultIdx?
  split
  · rename_i h
    -- the update is inside the operand: compare the landing index with j
    rw [Option.some.injEq]
    have h0 := (h 0).1
    rw [vecScatter_start0, vecScatter_window0] at h0
    constructor
    · intro hf
      have e0 := congrArg (fun f => (f 0).val) hf
      simp only [vecScatter_start0, vecScatter_window0] at e0
      have e0' : ((idx (ix2 e (0 : Fin 1))).toInt + ((0 : ℕ) : ℤ)).toNat = j.val := e0
      omega
    · intro hj
      funext a; refine Fin.ext ?_
      match a with
      | ⟨0, _⟩ =>
        show ((vecScatterDims N n wf).start (ix1 e) idx 0 + ((vecScatterDims N n wf).window (ix1 e) 0 : ℕ)).toNat = j.val
        rw [vecScatter_start0, vecScatter_window0]; omega
  · rename_i h
    -- the update is dropped: then its index is not j, for j is inside the operand
    constructor
    · intro hf; exact absurd hf (by simp)
    · intro hj
      refine absurd (fun a => ?_) h
      match a with
      | ⟨0, _⟩ =>
        show 0 ≤ (vecScatterDims N n wf).start (ix1 e) idx 0 + ((vecScatterDims N n wf).window (ix1 e) 0 : ℕ)
          ∧ (vecScatterDims N n wf).start (ix1 e) idx 0 + ((vecScatterDims N n wf).window (ix1 e) 0 : ℕ) < (N : ℤ)
        rw [vecScatter_start0, vecScatter_window0]
        have := j.isLt; omega

/-- The accumulating scatter read at j: the operand there plus the sum of the updates whose signed index is j. -/
theorem vecScatterAdd_apply (x : (⟨1, ![N]⟩ : Shape).Idx → EReal) (idx : IVec ⟨2, ![n, 1]⟩ w)
    (upd : (⟨1, ![n]⟩ : Shape).Idx → EReal) (j : Fin N) :
    Ideal.hostScatterAdd (vecScatterDims N n wf) x idx upd (ix1 j)
      = x (ix1 j) + ∑ e ∈ Finset.univ.filter (fun e : Fin n => (idx (ix2 e (0 : Fin 1))).toInt = (j.val : ℤ)),
          upd (ix1 e) := by
  unfold Ideal.hostScatterAdd
  congr 1
  -- the update indices landing on j are the e with idx[e, 0] = j
  have key : ∀ u : (⟨1, ![n]⟩ : Shape).Idx,
      u ∈ Finset.univ.filter (fun u => (vecScatterDims N n wf).resultIdx? u idx = some (ix1 j)) →
      ∃ a : Fin n, u = ix1 a ∧ (idx (ix2 a (0 : Fin 1))).toInt = (j.val : ℤ) := by
    intro u hu
    obtain ⟨a, rfl⟩ : ∃ a : Fin n, u = ix1 a := ⟨u 0, eq_ix1 u⟩
    exact ⟨a, rfl, (vecScatter_resultIdx?_eq_some_iff wf idx a j).mp (Finset.mem_filter.mp hu).2⟩
  refine Finset.sum_nbij' (fun u => (u 0 : Fin n)) (fun e => ix1 e) ?_ ?_ ?_ ?_ ?_
  · intro u hu
    obtain ⟨a, rfl, ha⟩ := key u hu
    exact Finset.mem_filter.mpr ⟨Finset.mem_univ _, ha⟩
  · intro e he
    exact Finset.mem_filter.mpr ⟨Finset.mem_univ _,
      (vecScatter_resultIdx?_eq_some_iff wf idx e j).mpr (Finset.mem_filter.mp he).2⟩
  · intro u hu
    obtain ⟨a, rfl, _⟩ := key u hu
    rfl
  · intro e _; rfl
  · intro u hu
    obtain ⟨a, rfl, _⟩ := key u hu
    rfl

/-- The host's accumulating rank-1 scatter at the exact instance, at any float format, read at j. -/
theorem vecHostScatterAdd_apply {φ : FTy} (x : FVec Ideal ⟨1, ![N]⟩ φ) (idx : IVec ⟨2, ![n, 1]⟩ w)
    (upd : FVec Ideal ⟨1, ![n]⟩ φ) (j : Fin N) :
    Host.scatterAdd (vecScatterDims N n wf) x idx upd (ix1 j)
      = x (ix1 j) + ∑ e ∈ Finset.univ.filter (fun e : Fin n => (idx (ix2 e (0 : Fin 1))).toInt = (j.val : ℤ)),
          upd (ix1 e) :=
  vecScatterAdd_apply wf x idx upd j
end Vec

/-! ## Multiplication by a nonnegative real distributes over extended-real sums -/

/-- (a + b) · r = a · r + b · r for a real r ≥ 0 and any extended reals a, b. -/
theorem add_mul_coe_of_nonneg {r : ℝ} (hr : 0 ≤ r) (a b : EReal) :
    (a + b) * (r : EReal) = a * (r : EReal) + b * (r : EReal) := by
  exact EReal.right_distrib_of_nonneg_of_ne_top (EReal.coe_nonneg.mpr hr) (EReal.coe_ne_top r) a b

/-- r · (a + b) = r · a + r · b for a real r ≥ 0 and any extended reals a, b. -/
theorem coe_mul_add_of_nonneg' {r : ℝ} (hr : 0 ≤ r) (a b : EReal) :
    (r : EReal) * (a + b) = (r : EReal) * a + (r : EReal) * b := by
  exact EReal.left_distrib_of_nonneg_of_ne_top (EReal.coe_nonneg.mpr hr) (EReal.coe_ne_top r) a b

/-- (∑ f i) · r = ∑ (f i · r) for a real r ≥ 0 and any finite family of extended reals. -/
theorem sum_mul_coe_of_nonneg {ι : Type*} {r : ℝ} (hr : 0 ≤ r) (s : Finset ι) (f : ι → EReal) :
    (∑ i ∈ s, f i) * (r : EReal) = ∑ i ∈ s, f i * (r : EReal) := by
  classical
  induction s using Finset.induction_on with
  | empty => simp
  | insert a s ha ih => rw [Finset.sum_insert ha, Finset.sum_insert ha, add_mul_coe_of_nonneg hr, ih]

/-- r · (∑ f i) = ∑ (r · f i) for a real r ≥ 0 and any finite family of extended reals. -/
theorem coe_mul_sum_of_nonneg {ι : Type*} {r : ℝ} (hr : 0 ≤ r) (s : Finset ι) (f : ι → EReal) :
    (r : EReal) * (∑ i ∈ s, f i) = ∑ i ∈ s, (r : EReal) * f i := by
  classical
  induction s using Finset.induction_on with
  | empty => simp
  | insert a s ha ih => rw [Finset.sum_insert ha, Finset.sum_insert ha, coe_mul_add_of_nonneg' hr, ih]

/-! ## Counting sums and their reciprocal square roots -/

/-- 0 plus a sum of ones over a finite set is the set's cardinality. -/
theorem zero_add_sum_one {ι : Type*} (s : Finset ι) :
    (0 : EReal) + ∑ _e ∈ s, (1 : EReal) = ((s.card : ℝ) : EReal) := by
  rw [zero_add, Finset.sum_const, nsmul_one]
  rfl

/-- The reciprocal square root of a positive natural number is a nonnegative real. -/
theorem rsqrt_natCast_pos {k : ℕ} (hk : 0 < k) :
    ∃ r : ℝ, 0 ≤ r ∧ Ideal.rsqrt ((k : ℝ) : EReal) = (r : EReal) := by
  have hk' : (0 : ℝ) < (k : ℝ) := by exact_mod_cast hk
  refine ⟨(Real.sqrt (k : ℝ))⁻¹, inv_nonneg.mpr (Real.sqrt_nonneg _), ?_⟩
  rw [Ideal.rsqrt_coe, if_neg (not_lt.mpr hk'.le), if_neg hk'.ne']

/-- "The reciprocal square root where the natural number is positive, else 0" is a nonnegative real. -/
theorem rsqrt_natCast_or_zero (k : ℕ) :
    ∃ r : ℝ, 0 ≤ r ∧ (if (0 : EReal) < ((k : ℝ) : EReal) then Ideal.rsqrt ((k : ℝ) : EReal) else 0) = (r : EReal) := by
  rcases Nat.eq_zero_or_pos k with rfl | hk
  · exact ⟨0, le_rfl, by simp⟩
  · obtain ⟨r, hr, h⟩ := rsqrt_natCast_pos hk
    have hk' : (0 : ℝ) < (k : ℝ) := by exact_mod_cast hk
    exact ⟨r, hr, by rw [if_pos (by exact_mod_cast hk'), h]⟩

end Idealize.ShloMosaic.ScatterSum
end
-- ==== Proof.RefValue.lean ====
import proofs.«418839_j86114094285068_2_alg».proof.Proof.Gen.ReferenceIdeal.Read
import proofs.«418839_j86114094285068_2_alg».proof.Proof.LibRowGather
import proofs.«418839_j86114094285068_2_alg».proof.Proof.LibScatterSum
import proofs.«418839_j86114094285068_2_alg».proof.Proof.Spec

noncomputable section

namespace Cert.ReferenceIdeal.RefValue

open Cert.ReferenceIdeal Idealize.ShloMosaic Idealize.ShloMosaic.ValueIdx
open scoped BigOperators

/-!
  The reference, read stage by stage at an index.

  Edge `e` carries the message `x[src e, ·] · adj e`: the gather reads the row of `x` at the source index, which
  under the range hypothesis is neither wrapped (it is not negative) nor moved by the clamp; the multiply scales it
  by the edge weight broadcast along the features. The scatter, started from the zero array, leaves at node `n` the
  sum of the messages of the edges whose destination is `n`. The product with `W` contracts the feature axis of the
  aggregate with the second axis of `W`, and the bias row is added: this is the message-passing form.
-/

/-! ## The two data-dependent stages' dimension numbers -/

/-- The gather's dimension numbers are those of a row gather out of a [10000, 128] table at a [640000, 1] column. -/
theorem gdims_eq :
    gather_S10000x128_S640000x1_S640000x128_1_0_n_n_0_1_1128
      = RowGather.rowDims 10000 128 640000 Gen.gather_S10000x128_S640000x1_S640000x128_1_0_n_n_0_1_1128_wf := rfl

/-- The scatter's dimension numbers are those of an accumulating row scatter into [10000, 128] from [640000, 128]. -/
theorem sdims_eq :
    scatter_S10000x128_S640000x1_S640000x128_1_0_0_1
      = ScatterSum.rowScatterDims 10000 128 640000 Gen.scatter_S10000x128_S640000x1_S640000x128_1_0_0_1_wf := rfl

/-! ## The wrap of a negative index -/

/-- A word that is nonnegative as a signed integer is not below zero, so "if a < 0 then y else a" is a. -/
theorem wrap_id (a y : BitVec 32) (ha : 0 ≤ a.toInt) :
    Scalar.select (IntOp.cmpi .slt a 0#32) y a = a := by
  have hs : a.slt 0#32 = false := by
    simp only [BitVec.slt, BitVec.toInt_zero, decide_eq_false_iff_not, not_lt]
    exact ha
  show (if BitVec.ofBool (a.slt 0#32) = 1 then y else a) = a
  rw [hs]
  rfl

/-! ## The index column, the gathered rows, the messages -/

section Stages
variable (x : (⟨S10000x128, .f32⟩ : BufTy).Contents (Elt Ideal)) (src dst : (⟨S640000, .i32⟩ : BufTy).Contents (Elt Ideal))
  (adj : (⟨S640000, .f32⟩ : BufTy).Contents (Elt Ideal))
  (hsrc : ∀ e : Fin 640000, 0 ≤ (src (ix1 e)).toInt ∧ (src (ix1 e)).toInt < 10000)
include hsrc

/-- The index column the gather reads holds, at row e, the source index of edge e itself: no source index is
    negative, so the wrap "add 10000 where negative" leaves each one as it is. -/
theorem index_column (e : Fin 640000) :
    Read.val_main_v5 (F := Ideal) src (ix2 e (0 : Fin 1)) = src (ix1 e) := by
  have hi : Read.idx_main_v5 (ix2 e (0 : Fin 1)) = ix1 e :=
    funext fun a => Fin.ext (by match a with | ⟨0, _⟩ => rfl)
  rw [Read.val_main_v5_apply, hi, Read.val_main_v4_apply, Read.val_main_v1_apply, Read.val_main_v0_apply,
    Read.val_main_c_apply]
  exact wrap_id _ _ (hsrc e).1

/-- Row e of the gathered table is the row of x that edge e's source index names. -/
theorem gathered (e : Fin 640000) (d : Fin 128) :
    Read.val_main_v6 (F := Ideal) x src (ix2 e d) = x (ix2 (Cert.GraphConv.srcRow src e) d) := by
  unfold Read.val_main_v6
  rw [gdims_eq, RowGather.rowGather_apply (by decide) _ x (Read.val_main_v5 (F := Ideal) src) e d]
  -- the clamped start index is the source index clamped, which is how the row of edge e is spelt
  refine congrArg x (congrArg (fun r : Fin 10000 => ix2 r d) (Fin.ext ?_))
  show min (Read.val_main_v5 (F := Ideal) src (ix2 e (0 : Fin 1))).toInt.toNat (10000 - 1) = _
  rw [index_column src hsrc e]
  rfl

/-- The message of edge e in feature d: the source row's entry times the edge weight. -/
theorem message (e : Fin 640000) (d : Fin 128) :
    Read.val_main_v9 (F := Ideal) x src adj (ix2 e d)
      = x (ix2 (Cert.GraphConv.srcRow src e) d) * adj (ix1 e) := by
  have hi : Read.idx_main_v7 (Read.idx_main_v8 (ix2 e d)) = ix1 e :=
    funext fun a => Fin.ext (by match a with | ⟨0, _⟩ => rfl)
  rw [Read.val_main_v9_apply, gathered x src hsrc e d, Read.val_main_v8_apply, Read.val_main_v7_apply, hi,
    Ideal.mulf_def]

/-! ## The aggregate -/

/-- Node n's row of the scattered sum, started from zero, is the sum of the messages of the edges into n. -/
theorem aggregate (n : Fin 10000) (d : Fin 128) :
    Read.val_main_v12 (F := Ideal) x src dst adj (ix2 n d) = Cert.GraphConv.agg x src dst adj n d := by
  unfold Read.val_main_v12
  rw [sdims_eq, ScatterSum.rowHostScatterAdd_apply, Read.val_main_v10_apply, Read.val_main_cst_apply,
    Ideal.ofBits_def, Ideal.ofBits_zero_f32, zero_add]
  unfold Cert.GraphConv.agg
  refine Finset.sum_congr (Finset.filter_congr fun e _ => ?_) (fun e _ => message x src adj hsrc e d)
  have hi : Read.idx_main_v11 (ix2 e (0 : Fin 1)) = ix1 e :=
    funext fun a => Fin.ext (by match a with | ⟨0, _⟩ => rfl)
  rw [Read.val_main_v11_apply, hi]

end Stages

/-- The reference's result, stage by stage, read at node `n` and output feature `o`: when every source index is
    a row of the table (so neither the wrap of a negative index nor the gather's clamp moves it), it is the
    message-passing form. -/
theorem ref_out (x : (⟨S10000x128, .f32⟩ : BufTy).Contents (Elt Ideal)) (src dst : (⟨S640000, .i32⟩ : BufTy).Contents (Elt Ideal))
    (adj : (⟨S640000, .f32⟩ : BufTy).Contents (Elt Ideal)) (W : (⟨S128x128, .f32⟩ : BufTy).Contents (Elt Ideal))
    (b : (⟨S128, .f32⟩ : BufTy).Contents (Elt Ideal))
    (hsrc : ∀ e : Fin 640000, 0 ≤ (src (ix1 e)).toInt ∧ (src (ix1 e)).toInt < 10000)
    (n : Fin 10000) (o : Fin 128) :
    Cert.ReferenceIdeal.Read.val_main_v16 (F := Ideal) x src dst adj W b (ix2 n o)
      = Cert.GraphConv.out x src dst adj W b n o := by
  have hl : ∀ k : Fin 128, Read.lidx_main_v13 (ix2 n o) k = ix2 n k := fun k =>
    funext fun a => Fin.ext (by match a with | ⟨0, _⟩ => rfl | ⟨1, _⟩ => rfl)
  have hr : ∀ k : Fin 128, Read.ridx_main_v13 (ix2 n o) k = ix2 o k := fun k =>
    funext fun a => Fin.ext (by match a with | ⟨0, _⟩ => rfl | ⟨1, _⟩ => rfl)
  have hb : Read.idx_main_v14 (Read.idx_main_v15 (ix2 n o)) = ix1 o :=
    funext fun a => Fin.ext (by match a with | ⟨0, _⟩ => rfl)
  rw [Read.val_main_v16_apply, Read.val_main_v13_apply, Read.val_main_v15_apply, Read.val_main_v14_apply, hb,
    Ideal.addf_def]
  simp only [hl, hr, aggregate x src dst adj hsrc]
  rfl

end Cert.ReferenceIdeal.RefValue

end
-- ==== Proof.PreFacts.lean ====
import proofs.«418839_j86114094285068_2_alg».proof.Proof.Gen.Pre_finite_inputs
import Idealize.ShloMosaic.Lib.ReduceAll
import Idealize.ShloMosaic.Lib.StableHlo.Predicate
import Idealize.ShloMosaic.Lib.ValueIdx
import Idealize.ShloMosaic.PureOps.Ideal

noncomputable section

namespace Cert.Pre_finite_inputs.PreFacts

open Cert.Pre_finite_inputs Idealize.ShloMosaic Idealize.ShloMosaic.ValueIdx

variable [Cert.Pre_finite_inputs.Facts]

/-- The rank-0 shape has exactly one index. -/
instance : Subsingleton S_.Idx := ⟨fun a b => funext fun d => d.elim0⟩

/-- The bit pattern 0x7F800000 (sign 0, exponent all ones, significand 0) denotes +∞. -/
theorem inf_bits : Ideal.ofBits .f32 0x7F800000#32 = (⊤ : EReal) := by
  simp [Ideal.ofBits, Ideal.ieee]

/-- An extended real v with |v| = max v (−v) strictly below +∞ is a real number: at v = +∞ and at v = −∞ the
    maximum is +∞, which is not below itself. -/
theorem real_of_abs_lt_inf (v : EReal)
    (h : Ideal.cmp .olt (max v (-v)) (Ideal.ofBits .f32 0x7F800000#32) = 1#1) : ∃ r : ℝ, v = (r : EReal) := by
  rw [inf_bits] at h
  unfold Ideal.cmp at h
  induction v using EReal.rec with
  | bot => simp at h
  | coe r => exact ⟨r, rfl⟩
  | top => simp at h

/-- One entry of the mask `|v| < +∞`, the +∞ a broadcast scalar constant: where it is 1 the entry of v is real. -/
theorem finite_at {s : Shape} (v : FVec Ideal s .f32) (hb : S_.BroadcastsInDim s (![] : Fin 0 → Fin s.rank)) (i : s.Idx)
    (h : cmpf .olt (Host.absf v) (broadcastInDim s ![] hb (constant S_ .f32 0x7F800000#32)) i = 1#1) :
    ∃ r : ℝ, v i = (r : EReal) :=
  real_of_abs_lt_inf (v i) h

/-- One entry of the mask `v ≥ 0` (signed), the 0 a broadcast scalar constant: where it is 1 the word is nonnegative. -/
theorem nonneg_at {s : Shape} (v : IVec s 32) (hb : S_.BroadcastsInDim s (![] : Fin 0 → Fin s.rank)) (i : s.Idx)
    (h : cmpi .sge v (broadcastInDim s ![] hb (constantI S_ 32 0#32)) i = 1#1) : 0 ≤ (v i).toInt := by
  have h' : IntOp.cmpi .sge (v i) 0#32 = 1#1 := h
  rw [IntOp.cmpi_sge] at h'
  simpa using h'

/-- One entry of the mask `v < 10000` (signed), the bound a broadcast scalar constant. -/
theorem lt_at {s : Shape} (v : IVec s 32) (hb : S_.BroadcastsInDim s (![] : Fin 0 → Fin s.rank)) (i : s.Idx)
    (h : cmpi .slt v (broadcastInDim s ![] hb (constantI S_ 32 10000#32)) i = 1#1) : (v i).toInt < 10000 := by
  have h' : IntOp.cmpi .slt (v i) 10000#32 = 1#1 := h
  rw [IntOp.cmpi_slt] at h'
  have e : (10000#32 : BitVec 32).toInt = 10000 := by decide
  rw [e] at h'
  exact h'

/-- What the precondition says: the table and the edge weights are real numbers, every source index is a row of the
    table, and no destination index is negative. -/
theorem pre_facts (x : FVec Ideal S10000x128 .f32) (src dst : IVec S640000 32) (adj : FVec Ideal S640000 .f32)
    (W : FVec Ideal S128x128 .f32) (b : FVec Ideal S128 .f32)
    (h : Cert.Pre_finite_inputs.fn (F := Ideal) x src dst adj W b = (fun _ => 1#1)) :
    (∀ i, ∃ r : ℝ, x i = (r : EReal)) ∧ (∀ i, ∃ r : ℝ, adj i = (r : EReal))
      ∧ (∀ e : Fin 640000, 0 ≤ (src (ix1 e)).toInt ∧ (src (ix1 e)).toInt < 10000)
      ∧ (∀ e : Fin 640000, 0 ≤ (dst (ix1 e)).toInt) := by
  -- the predicate's one word is 1
  have e := congrFun h ValueIdx.ix0
  unfold Cert.Pre_finite_inputs.fn Cert.Pre_finite_inputs.fn_part1 at e
  dsimp only at e
  -- a conjunction of seven `all`s; the two about W and b are not needed
  simp only [andi, IntOp.andi_eq_one] at e
  obtain ⟨⟨⟨⟨⟨⟨hx, hadj⟩, -⟩, -⟩, hs0⟩, hs1⟩, hd0⟩ := e
  refine ⟨fun i => ?_, fun i => ?_, fun k => ⟨?_, ?_⟩, fun k => ?_⟩
  · exact finite_at x _ i (Host.reduce_andi_all _ _ _ _ _ hx i)
  · exact finite_at adj _ i (Host.reduce_andi_all _ _ _ _ _ hadj i)
  · exact nonneg_at src _ (ix1 k) (Host.reduce_andi_all _ _ _ _ _ hs0 (ix1 k))
  · exact lt_at src _ (ix1 k) (Host.reduce_andi_all _ _ _ _ _ hs1 (ix1 k))
  · exact nonneg_at dst _ (ix1 k) (Host.reduce_andi_all _ _ _ _ _ hd0 (ix1 k))

end Cert.Pre_finite_inputs.PreFacts

end
-- ==== Proof.lean ====
/-
  The graph-convolution layer two ways, equal over the extended reals.

  The kernel's program sums the edge list into a dense [10240, 10240] adjacency matrix (a scatter-add of the edge
  weights at the (destination, source) pairs), pads the node table with 240 zero rows, and lets the pallas_call
  accumulate `A · X` band by band into a scratch, finishing each row block with the linear layer `· Wᵀ + b`; its
  last operation keeps the first 10000 rows. The reference gathers each edge's source row, scales it by the edge
  weight, sums the messages per destination, and applies the same linear layer.

  Under the precondition — the table and the edge weights finite, every source index a row of the table, no
  destination index negative — no index is wrapped or clamped on either side, a source index never meets a padding
  row, and the two are the same sum: `∑_j (∑_{e : dst e = n, src e = j} w_e) · x(j, d) = ∑_{e : dst e = n} x(src e, d) · w_e`
  (distributivity over a finite sum of real numbers, which is where finiteness is used), re-associated over the eight
  bands. The linear layer is literally the same on both sides, so the weights and the bias need no finiteness.
-/
import proofs.«418839_j86114094285068_2_alg».proof.Defs
import proofs.«418839_j86114094285068_2_alg».proof.Proof.Gen.Kernel
import proofs.«418839_j86114094285068_2_alg».proof.Proof.Gen.Kernel.Frame
import proofs.«418839_j86114094285068_2_alg».proof.Proof.Gen.KernelIdeal
import proofs.«418839_j86114094285068_2_alg».proof.Proof.Gen.ReferenceIdeal
import proofs.«418839_j86114094285068_2_alg».proof.Proof.Gen.ReferenceIdeal.Run
import proofs.«418839_j86114094285068_2_alg».proof.Proof.Gen.ReferenceIdeal.Read
import proofs.«418839_j86114094285068_2_alg».proof.Proof.Gen.Pre_finite_inputs
import proofs.«418839_j86114094285068_2_alg».proof.Proof.KernelArray
import proofs.«418839_j86114094285068_2_alg».proof.Proof.HostArrays
import proofs.«418839_j86114094285068_2_alg».proof.Proof.Algebra
import proofs.«418839_j86114094285068_2_alg».proof.Proof.RefValue
import proofs.«418839_j86114094285068_2_alg».proof.Proof.PreFacts
import Idealize.ShloMosaic.Adequacy
import Idealize.ShloMosaic.Init

noncomputable section

namespace Cert.Proof

open Idealize.ShloMosaic Idealize.ShloMosaic.TcCoe Idealize.SL.Sem Idealize.ShloMosaic.ValueIdx

/-- The word-level kernel runs and keeps its arguments: the generated frame. -/
theorem frame_k : Cert.frame_Kernel (hKernel := Cert.Kernel.Gen.facts) (hPre_finite_inputs := Cert.Pre_finite_inputs.Gen.facts) :=
  fun m ρ _ => Cert.Kernel.Gen.frame m ρ

/-- So does its idealization. -/
theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference is straight-line host code: its run, the result forgotten. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- Both programs end at the message-passing form of the arguments: the kernel's dense form is it under the
    precondition's index ranges and finiteness, the reference's stages are it under the source range. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.KernelIdeal.KArray.result m c, Cert.KernelIdeal.KArray.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5⟩ := hagree c
  rw [a0, a1, a2, a3, a4, a5]
  obtain ⟨hx, hadj, hsrc, hdst⟩ := Cert.Pre_finite_inputs.PreFacts.pre_facts
    (Cert.KernelIdeal.HostArrays.xArr m c) (Cert.KernelIdeal.HostArrays.srcArr m c) (Cert.KernelIdeal.HostArrays.dstArr m c)
    (Cert.KernelIdeal.HostArrays.adjArr m c) (Cert.KernelIdeal.HostArrays.wArr m c) (Cert.KernelIdeal.HostArrays.bArr m c) (hpre c)
  refine (Cert.ReferenceIdeal.Read.val_main_v16_eq (F := Ideal) (Cert.KernelIdeal.HostArrays.xArr m c) (Cert.KernelIdeal.HostArrays.srcArr m c)
    (Cert.KernelIdeal.HostArrays.dstArr m c) (Cert.KernelIdeal.HostArrays.adjArr m c) (Cert.KernelIdeal.HostArrays.wArr m c)
    (Cert.KernelIdeal.HostArrays.bArr m c)).trans ?_
  funext i
  obtain ⟨n, o, rfl⟩ : ∃ (n : Fin 10000) (o : Fin 128), i = ix2 n o := ⟨i 0, i 1, eq_ix2 i⟩
  rw [Cert.ReferenceIdeal.RefValue.ref_out _ _ _ _ _ _ hsrc n o]
  show _ = Cert.KernelIdeal.KArray.result m c (ix2 n o)
  rw [Cert.KernelIdeal.KArray.result_apply m c n o]
  exact (Cert.GraphConv.dense_eq_out _ _ _ _ _ _ _ _ _ _
    (Cert.KernelIdeal.HostArrays.V_adjacency m c hdst (fun e => (hsrc e).1))
    (Cert.KernelIdeal.HostArrays.V_table m c) (Cert.KernelIdeal.HostArrays.V_weights m c) (Cert.KernelIdeal.HostArrays.V_bias m c)
    hx hadj hsrc n o).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
